-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S100000x256 : Shape := ⟨2, ![100000, 256]⟩
abbrev S1x256 : Shape := ⟨2, ![1, 256]⟩
abbrev S64x2 : Shape := ⟨2, ![64, 2]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1x256 : S_.BroadcastsInDim S1x256 (![] : Fin 0 → Fin S1x256.rank)
  reducesTo_S1x256_S_d0_1 : S1x256.ReducesTo [0, 1] S_
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x32 .f32) (main_arg8 : FVec F S1 .f32) (main_v31 : IVec S_ 1) (main_v32 : FVec F S32 .f32) (main_cst_12 : FVec F S_ .f32) : IVec S_ 1 :=
  let main_v33 : FVec F S32 .f32 := broadcastInDim S32 ![] bcast_S_S32 main_cst_12
  let main_v34 : IVec S32 1 := cmpf .olt main_v32 main_v33
  let main_c_13 : IVec S_ 1 := constantI S_ 1 1#1
  let main_v35 : IVec S_ 1 := (fun x v => Host.reduce IntOp.andi x v reducesTo_S32_S_d0 h_S_) main_v34 main_c_13
  let main_v36 : IVec S_ 1 := andi main_v31 main_v35
  let main_v37 : FVec F S1x32 .f32 := Host.absf main_arg7
  let main_cst_14 : FVec F S_ .f32 := constant S_ .f32 0x7F800000#32
  let main_v38 : FVec F S1x32 .f32 := broadcastInDim S1x32 ![] bcast_S_S1x32 main_cst_14
  let main_v39 : IVec S1x32 1 := cmpf .olt main_v37 main_v38
  let main_c_15 : IVec S_ 1 := constantI S_ 1 1#1
  let main_v40 : IVec S_ 1 := (fun x v => Host.reduce IntOp.andi x v reducesTo_S1x32_S_d0_1 h_S_) main_v39 main_c_15
  let main_v41 : IVec S_ 1 := andi main_v36 main_v40
  let main_v42 : FVec F S1 .f32 := Host.absf main_arg8
  let main_cst_16 : FVec F S_ .f32 := constant S_ .f32 0x7F800000#32
  let main_v43 : FVec F S1 .f32 := broadcastInDim S1 ![] bcast_S_S1 main_cst_16
  let main_v44 : IVec S1 1 := cmpf .olt main_v42 main_v43
  let main_c_17 : IVec S_ 1 := constantI S_ 1 1#1
  let main_v45 : IVec S_ 1 := (fun x v => Host.reduce IntOp.andi x v reducesTo_S1_S_d0 h_S_) main_v44 main_c_17
  let main_v46 : IVec S_ 1 := andi main_v41 main_v45
  main_v46

def fn_part1 {F : FTy → Type} [FloatOps F] (main_arg3 : FVec F S64x2 .f32) (main_arg4 : FVec F S64 .f32) (main_arg5 : FVec F S32x64 .f32) (main_arg6 : FVec F S32 .f32) (main_arg7 : FVec F S1x32 .f32) (main_arg8 : FVec F S1 .f32) (main_v11 : IVec S_ 1) (main_v15 : IVec S_ 1) : IVec S_ 1 :=
  let main_v16 : IVec S_ 1 := andi main_v11 main_v15
  let main_v17 : FVec F S64x2 .f32 := Host.absf main_arg3
  let main_cst_6 : FVec F S_ .f32 := constant S_ .f32 0x7F800000#32
  let main_v18 : FVec F S64x2 .f32 := broadcastInDim S64x2 ![] bcast_S_S64x2 main_cst_6
  let main_v19 : IVec S64x2 1 := cmpf .olt main_v17 main_v18
  let main_c_7 : IVec S_ 1 := constantI S_ 1 1#1
  let main_v20 : IVec S_ 1 := (fun x v => Host.reduce IntOp.andi x v reducesTo_S64x2_S_d0_1 h_S_) main_v19 main_c_7
  let main_v21 : IVec S_ 1 := andi main_v16 main_v20
  let main_v22 : FVec F S64 .f32 := Host.absf main_arg4
  let main_cst_8 : FVec F S_ .f32 := constant S_ .f32 0x7F800000#32
  let main_v23 : FVec F S64 .f32 := broadcastInDim S64 ![] bcast_S_S64 main_cst_8
  let main_v24 : IVec S64 1 := cmpf .olt main_v22 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v21 main_v25
  let main_v27 : FVec F S32x64 .f32 := Host.absf main_arg5
  let main_cst_10 : FVec F S_ .f32 := constant S_ .f32 0x7F800000#32
  let main_v28 : FVec F S32x64 .f32 := broadcastInDim S32x64 ![] bcast_S_S32x64 main_cst_10
  let main_v29 : IVec S32x64 1 := cmpf .olt main_v27 main_v28
  let main_c_11 : IVec S_ 1 := constantI S_ 1 1#1
  let main_v30 : IVec S_ 1 := (fun x v => Host.reduce IntOp.andi x v reducesTo_S32x64_S_d0_1 h_S_) main_v29 main_c_11
  let main_v31 : IVec S_ 1 := andi main_v26 main_v30
  let main_v32 : FVec F S32 .f32 := Host.absf main_arg6
  let main_cst_12 : FVec F S_ .f32 := constant S_ .f32 0x7F800000#32
  fn_part2 (F := F) main_arg7 main_arg8 main_v31 main_v32 main_cst_12

def fn {F : FTy → Type} [FloatOps F] (main_arg0 : IVec S1000000x2 32) (main_arg1 : FVec F S100000x256 .f32) (main_arg2 : FVec F S1x256 .f32) (main_arg3 : FVec F S64x2 .f32) (main_arg4 : FVec F S64 .f32) (main_arg5 : FVec F S32x64 .f32) (main_arg6 : FVec F S32 .f32) (main_arg7 : FVec F S1x32 .f32) (main_arg8 : FVec F S1 .f32) : IVec S_ 1 :=
  let main_c : IVec S_ 32 := constantI S_ 32 4294867296#32
  let main_v0 : IVec S1000000x2 32 := broadcastInDim S1000000x2 ![] bcast_S_S1000000x2 main_c
  let main_v1 : IVec S1000000x2 1 := cmpi .sge main_arg0 main_v0
  let main_c_0 : IVec S_ 1 := constantI S_ 1 1#1
  let main_v2 : IVec S_ 1 := (fun x v => Host.reduce IntOp.andi x v reducesTo_S1000000x2_S_d0_1 h_S_) main_v1 main_c_0
  let main_c_1 : IVec S_ 32 := constantI S_ 32 100000#32
  let main_v3 : IVec S1000000x2 32 := broadcastInDim S1000000x2 ![] bcast_S_S1000000x2 main_c_1
  let main_v4 : IVec S1000000x2 1 := cmpi .slt main_arg0 main_v3
  let main_c_2 : IVec S_ 1 := constantI S_ 1 1#1
  let main_v5 : IVec S_ 1 := (fun x v => Host.reduce IntOp.andi x v reducesTo_S1000000x2_S_d0_1 h_S_) main_v4 main_c_2
  let main_v6 : IVec S_ 1 := andi main_v2 main_v5
  let main_v7 : FVec F S100000x256 .f32 := Host.absf main_arg1
  let main_cst : FVec F S_ .f32 := constant S_ .f32 0x7F800000#32
  let main_v8 : FVec F S100000x256 .f32 := broadcastInDim S100000x256 ![] bcast_S_S100000x256 main_cst
  let main_v9 : IVec S100000x256 1 := cmpf .olt main_v7 main_v8
  let main_c_3 : IVec S_ 1 := constantI S_ 1 1#1
  let main_v10 : IVec S_ 1 := (fun x v => Host.reduce IntOp.andi x v reducesTo_S100000x256_S_d0_1 h_S_) main_v9 main_c_3
  let main_v11 : IVec S_ 1 := andi main_v6 main_v10
  let main_v12 : FVec F S1x256 .f32 := Host.absf main_arg2
  let main_cst_4 : FVec F S_ .f32 := constant S_ .f32 0x7F800000#32
  let main_v13 : FVec F S1x256 .f32 := broadcastInDim S1x256 ![] bcast_S_S1x256 main_cst_4
  let main_v14 : IVec S1x256 1 := cmpf .olt main_v12 main_v13
  let main_c_5 : IVec S_ 1 := constantI S_ 1 1#1
  let main_v15 : IVec S_ 1 := (fun x v => Host.reduce IntOp.andi x v reducesTo_S1x256_S_d0_1 h_S_) main_v14 main_c_5
  fn_part1 (F := F) main_arg3 main_arg4 main_arg5 main_arg6 main_arg7 main_arg8 main_v11 main_v15
-- ==== Kernel.lean ====
abbrev S1000000x2 : Shape := ⟨2, ![1000000, 2]⟩
abbrev S100000x256 : Shape := ⟨2, ![100000, 256]⟩
abbrev S1x256 : Shape := ⟨2, ![1, 256]⟩
abbrev S64x2 : Shape := ⟨2, ![64, 2]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩
abbrev S1003520x2 : Shape := ⟨2, ![1003520, 2]⟩
abbrev S1003520x1 : Shape := ⟨2, ![1003520, 1]⟩
abbrev S1003520 : Shape := ⟨1, ![1003520]⟩
abbrev S1x1 : Shape := ⟨2, ![1, 1]⟩
abbrev S1003520x256 : Shape := ⟨2, ![1003520, 256]⟩
abbrev S64x1 : Shape := ⟨2, ![64, 1]⟩
abbrev S1x64 : Shape := ⟨2, ![1, 64]⟩
abbrev S64x32 : Shape := ⟨2, ![64, 32]⟩
abbrev S32x1 : Shape := ⟨2, ![32, 1]⟩
abbrev S4096x256 : Shape := ⟨2, ![4096, 256]⟩
abbrev S4096x1 : Shape := ⟨2, ![4096, 1]⟩
abbrev S4096 : Shape := ⟨1, ![4096]⟩
abbrev S4096x64 : Shape := ⟨2, ![4096, 64]⟩
abbrev S4096x32 : Shape := ⟨2, ![4096, 32]⟩
abbrev S1000000x1 : Shape := ⟨2, ![1000000, 1]⟩
abbrev S1000000 : Shape := ⟨1, ![1000000]⟩

abbrev nBuf : Space → Nat
  | .hbm => 77
  | .vmem => 14
  | .smem => 0
  | _ => 0

abbrev bufTy : (tb : Table) → Fin (tcTables nBuf tb) → BufTy
  | .hbm, ⟨0, _⟩ => ⟨S1000000x2, .i32⟩
  | .hbm, ⟨1, _⟩ => ⟨S100000x256, .f32⟩
  | .hbm, ⟨2, _⟩ => ⟨S1x256, .f32⟩
  | .hbm, ⟨3, _⟩ => ⟨S64x2, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S_, .i32⟩
  | .hbm, ⟨10, _⟩ => ⟨S_, .i32⟩
  | .hbm, ⟨11, _⟩ => ⟨S1003520x2, .i32⟩
  | .hbm, ⟨12, _⟩ => ⟨S1003520x1, .i32⟩
  | .hbm, ⟨13, _⟩ => ⟨S1003520, .i32⟩
  | .hbm, ⟨14, _⟩ => ⟨S1003520x1, .i32⟩
  | .hbm, ⟨15, _⟩ => ⟨S1003520, .i32⟩
  | .hbm, ⟨16, _⟩ => ⟨S_, .i32⟩
  | .hbm, ⟨17, _⟩ => ⟨S1003520, .i32⟩
  | .hbm, ⟨18, _⟩ => ⟨S1003520, .i1⟩
  | .hbm, ⟨19, _⟩ => ⟨S_, .i32⟩
  | .hbm, ⟨20, _⟩ => ⟨S1003520, .i32⟩
  | .hbm, ⟨21, _⟩ => ⟨S1003520, .i32⟩
  | .hbm, ⟨22, _⟩ => ⟨S1003520, .i32⟩
  | .hbm, ⟨23, _⟩ => ⟨S1003520x1, .i32⟩
  | .hbm, ⟨24, _⟩ => ⟨S1, .i32⟩
  | .hbm, ⟨25, _⟩ => ⟨S_, .i32⟩
  | .hbm, ⟨26, _⟩ => ⟨S1003520x1, .i32⟩
  | .hbm, ⟨27, _⟩ => ⟨S1003520x1, .i1⟩
  | .hbm, ⟨28, _⟩ => ⟨S1x1, .i32⟩
  | .hbm, ⟨29, _⟩ => ⟨S1003520x1, .i32⟩
  | .hbm, ⟨30, _⟩ => ⟨S1003520x1, .i1⟩
  | .hbm, ⟨31, _⟩ => ⟨S1003520x1, .i1⟩
  | .hbm, ⟨32, _⟩ => ⟨S_, .i1⟩
  | .hbm, ⟨33, _⟩ => ⟨S1003520, .i1⟩
  | .hbm, ⟨34, _⟩ => ⟨S1003520x256, .f32⟩
  | .hbm, ⟨35, _⟩ => ⟨S1003520x256, .i1⟩
  | .hbm, ⟨36, _⟩ => ⟨S_, .f32⟩
  | .hbm, ⟨37, _⟩ => ⟨S1003520x256, .f32⟩
  | .hbm, ⟨38, _⟩ => ⟨S1003520x256, .f32⟩
  | .hbm, ⟨39, _⟩ => ⟨S_, .i32⟩
  | .hbm, ⟨40, _⟩ => ⟨S1003520, .i32⟩
  | .hbm, ⟨41, _⟩ => ⟨S1003520, .i1⟩
  | .hbm, ⟨42, _⟩ => ⟨S_, .i32⟩
  | .hbm, ⟨43, _⟩ => ⟨S1003520, .i32⟩
  | .hbm, ⟨44, _⟩ => ⟨S1003520, .i32⟩
  | .hbm, ⟨45, _⟩ => ⟨S1003520, .i32⟩
  | .hbm, ⟨46, _⟩ => ⟨S1003520x1, .i32⟩
  | .hbm, ⟨47, _⟩ => ⟨S1, .i32⟩
  | .hbm, ⟨48, _⟩ => ⟨S_, .i32⟩
  | .hbm, ⟨49, _⟩ => ⟨S1003520x1, .i32⟩
  | .hbm, ⟨50, _⟩ => ⟨S1003520x1, .i1⟩
  | .hbm, ⟨51, _⟩ => ⟨S1x1, .i32⟩
  | .hbm, ⟨52, _⟩ => ⟨S1003520x1, .i32⟩
  | .hbm, ⟨53, _⟩ => ⟨S1003520x1, .i1⟩
  | .hbm, ⟨54, _⟩ => ⟨S1003520x1, .i1⟩
  | .hbm, ⟨55, _⟩ => ⟨S_, .i1⟩
  | .hbm, ⟨56, _⟩ => ⟨S1003520, .i1⟩
  | .hbm, ⟨57, _⟩ => ⟨S1003520x256, .f32⟩
  | .hbm, ⟨58, _⟩ => ⟨S1003520x256, .i1⟩
  | .hbm, ⟨59, _⟩ => ⟨S_, .f32⟩
  | .hbm, ⟨60, _⟩ => ⟨S1003520x256, .f32⟩
  | .hbm, ⟨61, _⟩ => ⟨S1003520x256, .f32⟩
  | .hbm, ⟨62, _⟩ => ⟨S1x256, .f32⟩
  | .hbm, ⟨63, _⟩ => ⟨S64x1, .f32⟩
  | .hbm, ⟨64, _⟩ => ⟨S64, .f32⟩
  | .hbm, ⟨65, _⟩ => ⟨S1x64, .f32⟩
  | .hbm, ⟨66, _⟩ => ⟨S64x1, .f32⟩
  | .hbm, ⟨67, _⟩ => ⟨S64, .f32⟩
  | .hbm, ⟨68, _⟩ => ⟨S1x64, .f32⟩
  | .hbm, ⟨69, _⟩ => ⟨S1x64, .f32⟩
  | .hbm, ⟨70, _⟩ => ⟨S64x32, .f32⟩
  | .hbm, ⟨71, _⟩ => ⟨S1x32, .f32⟩
  | .hbm, ⟨72, _⟩ => ⟨S32x1, .f32⟩
  | .hbm, ⟨73, _⟩ => ⟨S1x1, .f32⟩
  | .hbm, ⟨74, _⟩ => ⟨S1003520x1, .f32⟩
  | .hbm, ⟨75, _⟩ => ⟨S1000000x1, .f32⟩
  | .hbm, ⟨76, _⟩ => ⟨S1000000, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x1, .f32⟩
  | .local _ .vmem, ⟨11, _⟩ => ⟨S1x1, .f32⟩
  | .local _ .vmem, ⟨12, _⟩ => ⟨S4096x1, .f32⟩
  | .local _ .vmem, ⟨13, _⟩ => ⟨S4096x1, .f32⟩
  | _, _ => ⟨S1000000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v5 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_cst : Ref sig .tc := ⟨.hbm, 59, rfl⟩
abbrev main_call2_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  pads_S1000000x2_S1003520x2_035200_000 : S1000000x2.Pads (![0, 0] : Fin 2 → Nat) ![3520, 0] ![0, 0] S1003520x2
  h_S_ : 0 < S_.numel
  slices_S1003520x2_S1003520x1_0_0 : S1003520x2.Slices ![0, 0] S1003520x1
  shapeCasts_S1003520x1_S1003520 : S1003520x1.ShapeCasts S1003520
  slices_S1003520x2_S1003520x1_0_1 : S1003520x2.Slices ![0, 1] S1003520x1
  bcast_S_S1003520 : S_.BroadcastsInDim S1003520 (![] : Fin 0 → Fin S1003520.rank)
  bcast_S1003520_S1003520x1_0 : S1003520.BroadcastsInDim S1003520x1 (![0] : Fin 1 → Fin S1003520x1.rank)
  bcast_S_S1003520x1 : S_.BroadcastsInDim S1003520x1 (![] : Fin 0 → Fin S1003520x1.rank)
  bcast_S1_S1x1_1 : S1.BroadcastsInDim S1x1 (![1] : Fin 1 → Fin S1x1.rank)
  bcast_S1x1_S1003520x1_0_1 : S1x1.BroadcastsInDim S1003520x1 (![0, 1] : Fin 2 → Fin S1003520x1.rank)
  reducesTo_S1003520x1_S1003520_d1 : S1003520x1.ReducesTo [1] S1003520
  bcast_S1003520_S1003520x256_0 : S1003520.BroadcastsInDim S1003520x256 (![0] : Fin 1 → Fin S1003520x256.rank)
  bcast_S_S1003520x256 : S_.BroadcastsInDim S1003520x256 (![] : Fin 0 → Fin S1003520x256.rank)
  slices_S64x2_S64x1_0_0 : S64x2.Slices ![0, 0] S64x1
  shapeCasts_S64x1_S64 : S64x1.ShapeCasts S64
  shapeCasts_S64_S1x64 : S64.ShapeCasts S1x64
  slices_S64x2_S64x1_0_1 : S64x2.Slices ![0, 1] S64x1
  transposes_S32x64_S64x32_1_0 : S32x64.Transposes [1, 0] S64x32
  shapeCasts_S32_S1x32 : S32.ShapeCasts S1x32
  transposes_S1x32_S32x1_1_0 : S1x32.Transposes [1, 0] S32x1
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4096x1_S4096x64 : S4096x1.Broadcasts S4096x64
  broadcasts_S1x64_S4096x64 : S1x64.Broadcasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S1003520x1_S1000000x1_0_0 : S1003520x1.Slices ![0, 0] S1000000x1
  shapeCasts_S1000000x1_S1000000 : S1000000x1.ShapeCasts S1000000
  gather_S100000x256_S1003520x1_S1003520x256_1_0_n_n_0_1_1256_wf : GatherDims.WF S100000x256 S1003520x1 S1003520x256 [1] [0] [] [0] [] 1 ![1, 256]
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S1003520x256.size a
  hwx0_0 : ∀ i : grid0.Coords, EltTy.bits .f32 = 32 ∨ (Rect.block (s := S1003520x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S1003520x256.size a
  hwx0_1 : ∀ i : grid0.Coords, EltTy.bits .f32 = 32 ∨ (Rect.block (s := S1003520x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S1003520x1.size a
  hwx0_10 : ∀ i : grid0.Coords, EltTy.bits .f32 = 32 ∨ (Rect.block (s := S1003520x1) S4096x1.size (cc0_transform_10 i) (hinb0_10 i)).WholeWords (EltTy.packing .f32)

variable [Facts₀]

def gather_S100000x256_S1003520x1_S1003520x256_1_0_n_n_0_1_1256 : GatherDims S100000x256 S1003520x1 S1003520x256 where
  offsetDims := [1]
  collapsedSliceDims := [0]
  operandBatchingDims := []
  startIndicesBatchingDims := []
  startIndexMap := [0]
  indexVectorDim := 1
  sliceSizes := ![1, 256]
  wf := gather_S100000x256_S1003520x1_S1003520x256_1_0_n_n_0_1_1256_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_v5) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S4096x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S100000x256 : Shape := ⟨2, ![100000, 256]⟩
abbrev S1x256 : Shape := ⟨2, ![1, 256]⟩
abbrev S64x2 : Shape := ⟨2, ![64, 2]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1000000x1 : Shape := ⟨2, ![1000000, 1]⟩
abbrev S1000000 : Shape := ⟨1, ![1000000]⟩
abbrev S_ : Shape := ⟨0, ![]⟩
abbrev S1000000x256 : Shape := ⟨2, ![1000000, 256]⟩
abbrev S2x64 : Shape := ⟨2, ![2, 64]⟩
abbrev S1000000x64 : Shape := ⟨2, ![1000000, 64]⟩
abbrev S1x64 : Shape := ⟨2, ![1, 64]⟩
abbrev S64x32 : Shape := ⟨2, ![64, 32]⟩
abbrev S1000000x32 : Shape := ⟨2, ![1000000, 32]⟩
abbrev S32x1 : Shape := ⟨2, ![32, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S1000000x2, .i32⟩
  | .hbm, ⟨1, _⟩ => ⟨S100000x256, .f32⟩
  | .hbm, ⟨2, _⟩ => ⟨S1x256, .f32⟩
  | .hbm, ⟨3, _⟩ => ⟨S64x2, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S1000000x1, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x256, .f32⟩
  | .hbm, ⟨20, _⟩ => ⟨S1000000x256, .f32⟩
  | .hbm, ⟨21, _⟩ => ⟨S1000000x256, .f32⟩
  | .hbm, ⟨22, _⟩ => ⟨S1000000x1, .i32⟩
  | .hbm, ⟨23, _⟩ => ⟨S1000000, .i32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x256, .f32⟩
  | .hbm, ⟨33, _⟩ => ⟨S1000000x256, .f32⟩
  | .hbm, ⟨34, _⟩ => ⟨S1000000x256, .f32⟩
  | .hbm, ⟨35, _⟩ => ⟨S1000000x256, .f32⟩
  | .hbm, ⟨36, _⟩ => ⟨S_, .f32⟩
  | .hbm, ⟨37, _⟩ => ⟨S1000000, .f32⟩
  | .hbm, ⟨38, _⟩ => ⟨S1000000x256, .f32⟩
  | .hbm, ⟨39, _⟩ => ⟨S_, .f32⟩
  | .hbm, ⟨40, _⟩ => ⟨S1000000, .f32⟩
  | .hbm, ⟨41, _⟩ => ⟨S1000000, .f32⟩
  | .hbm, ⟨42, _⟩ => ⟨S_, .f32⟩
  | .hbm, ⟨43, _⟩ => ⟨S1000000, .f32⟩
  | .hbm, ⟨44, _⟩ => ⟨S1000000, .f32⟩
  | .hbm, ⟨45, _⟩ => ⟨S1000000x256, .f32⟩
  | .hbm, ⟨46, _⟩ => ⟨S_, .f32⟩
  | .hbm, ⟨47, _⟩ => ⟨S1000000, .f32⟩
  | .hbm, ⟨48, _⟩ => ⟨S1000000, .f32⟩
  | .hbm, ⟨49, _⟩ => ⟨S_, .f32⟩
  | .hbm, ⟨50, _⟩ => ⟨S1000000, .f32⟩
  | .hbm, ⟨51, _⟩ => ⟨S1000000, .f32⟩
  | .hbm, ⟨52, _⟩ => ⟨S1000000, .f32⟩
  | .hbm, ⟨53, _⟩ => ⟨S1000000, .f32⟩
  | .hbm, ⟨54, _⟩ => ⟨S1000000x1, .f32⟩
  | .hbm, ⟨55, _⟩ => ⟨S1000000x1, .f32⟩
  | .hbm, ⟨56, _⟩ => ⟨S1000000x2, .f32⟩
  | .hbm, ⟨57, _⟩ => ⟨S2x64, .f32⟩
  | .hbm, ⟨58, _⟩ => ⟨S1000000x64, .f32⟩
  | .hbm, ⟨59, _⟩ => ⟨S1x64, .f32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S1000000x64, .f32⟩
  | .hbm, ⟨64, _⟩ => ⟨S1000000x64, .f32⟩
  | .hbm, ⟨65, _⟩ => ⟨S64x32, .f32⟩
  | .hbm, ⟨66, _⟩ => ⟨S1000000x32, .f32⟩
  | .hbm, ⟨67, _⟩ => ⟨S1x32, .f32⟩
  | .hbm, ⟨68, _⟩ => ⟨S1000000x32, .f32⟩
  | .hbm, ⟨69, _⟩ => ⟨S1000000x32, .f32⟩
  | .hbm, ⟨70, _⟩ => ⟨S_, .f32⟩
  | .hbm, ⟨71, _⟩ => ⟨S1000000x32, .f32⟩
  | .hbm, ⟨72, _⟩ => ⟨S1000000x32, .f32⟩
  | .hbm, ⟨73, _⟩ => ⟨S32x1, .f32⟩
  | .hbm, ⟨74, _⟩ => ⟨S1000000x1, .f32⟩
  | .hbm, ⟨75, _⟩ => ⟨S1x1, .f32⟩
  | .hbm, ⟨76, _⟩ => ⟨S1000000x1, .f32⟩
  | .hbm, ⟨77, _⟩ => ⟨S1000000x1, .f32⟩
  | .hbm, ⟨78, _⟩ => ⟨S1000000, .f32⟩
  | _, _ => ⟨S1000000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call3_cst : Ref sig .tc := ⟨.hbm, 70, rfl⟩
abbrev main_call3_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x256_S1000000x256_0_1 : S1x256.BroadcastsInDim S1000000x256 (![0, 1] : Fin 2 → Fin S1000000x256.rank)
  slices_S1000000x2_S1000000x1_0_1 : S1000000x2.Slices ![0, 1] S1000000x1
  reducesTo_S1000000x256_S1000000_d1 : S1000000x256.ReducesTo [1] S1000000
  h_S_ : 0 < S_.numel
  concatenates_S1000000x1_S1000000x1_S1000000x2_d1 : Shape.Concatenates [S1000000x1, S1000000x1] S1000000x2 1
  transposes_S64x2_S2x64_1_0 : S64x2.Transposes [1, 0] S2x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  transposes_S1x32_S32x1_1_0 : S1x32.Transposes [1, 0] S32x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S100000x256_S1000000x1_S1000000x256_1_0_n_n_0_1_1256_wf : GatherDims.WF S100000x256 S1000000x1 S1000000x256 [1] [0] [] [0] [] 1 ![1, 256]
  dot_S1000000x2_S2x64_S1000000x64_1_0_0_1_n_n_wf : DotDims.WF S1000000x2 S2x64 S1000000x64 [1] [0] [0] [1] [] []
  dot_S1000000x64_S64x32_S1000000x32_1_0_0_1_n_n_wf : DotDims.WF S1000000x64 S64x32 S1000000x32 [1] [0] [0] [1] [] []
  dot_S1000000x32_S32x1_S1000000x1_1_0_0_1_n_n_wf : DotDims.WF S1000000x32 S32x1 S1000000x1 [1] [0] [0] [1] [] []

variable [Facts₀]

def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def dot_S1000000x2_S2x64_S1000000x64_1_0_0_1_n_n : DotDims S1000000x2 S2x64 S1000000x64 where
  lhsContracting := [1]
  rhsContracting := [0]
  lhsNonContracting := [0]
  rhsNonContracting := [1]
  lhsBatch := []
  rhsBatch := []
  wf := dot_S1000000x2_S2x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.Score.lean ====
/-
  The score of one edge, as ONE function of two rows of the embedding table, the weight row and the parameters of the
  small network — the value both programs compute for every edge.

  For rows a, b : Fin 256 → EReal of the table and the weight row ω the ω-weighted inner product is
      wdot a b ω = Σ_d (a_d · b_d) · (ω_d · ω_d),
  the cosine is  wdot a b / (max(√(wdot a a), ε) · max(√(wdot b b), ε))  with each norm clamped below by ε separately,
  and the score feeds (cosine, wdot a b) through two rectified affine layers (2 → 64 → 32) and one affine read-out (32 → 1).
  Everything is on the extended reals, where a float operation is the exact one; no law used here needs finiteness:
  multiplication is commutative and associative there and finite sums may be regrouped term by term.
-/
import Idealize.ShloMosaic.PureOps.Ideal
import Idealize.ShloMosaic.Lib.ValueIdx

noncomputable section

open scoped BigOperators

namespace Cert.Score

open Idealize.ShloMosaic

/-- The clamp of a norm: the extended real the f32 word nearest 1e-8 denotes (both programs carry this word). -/
abbrev eps : EReal := Ideal.ofBits .f32 0x322BCC77#32

/-- The ω-weighted inner product of two rows with the squared weight applied to the rows' product:
    Σ_d (a_d · b_d) · (ω_d · ω_d). -/
def wdot (a b ω : Fin 256 → EReal) : EReal := ∑ d : Fin 256, a d * b d * (ω d * ω d)

/-- Weighting each row first gives the same sum: (a_d ω_d)(b_d ω_d) = (a_d b_d)(ω_d ω_d) in a commutative monoid,
    term by term, infinities included. -/
theorem sum_weighted_rows (a b ω : Fin 256 → EReal) : (∑ d : Fin 256, a d * ω d * (b d * ω d)) = wdot a b ω :=
  Finset.sum_congr rfl fun d _ => mul_mul_mul_comm (a d) (ω d) (b d) (ω d)

/-- The cosine of the two weighted rows, each norm clamped below by ε on its own. -/
def cosine (a b ω : Fin 256 → EReal) : EReal :=
  Ideal.div (wdot a b ω) (max (Ideal.sqrt (wdot a a ω)) eps * max (Ideal.sqrt (wdot b b ω)) eps)

/-- First layer, unit j: the rectified affine image of the pair (cosine, inner product); wc and wd are the two
    columns of the 64 × 2 weight matrix. -/
def hidden1 (a b ω : Fin 256 → EReal) (wc wd c1 : Fin 64 → EReal) (j : Fin 64) : EReal :=
  max (cosine a b ω * wc j + wdot a b ω * wd j + c1 j) 0

/-- Second layer, unit l: W2T is the 64 × 32 transpose of the weight matrix. -/
def hidden2 (a b ω : Fin 256 → EReal) (wc wd c1 : Fin 64 → EReal) (W2T : Fin 64 → Fin 32 → EReal) (c2 : Fin 32 → EReal)
    (l : Fin 32) : EReal :=
  max ((∑ j : Fin 64, hidden1 a b ω wc wd c1 j * W2T j l) + c2 l) 0

/-- The edge's score: the affine read-out of the second layer. -/
def score (a b ω : Fin 256 → EReal) (wc wd c1 : Fin 64 → EReal) (W2T : Fin 64 → Fin 32 → EReal) (c2 : Fin 32 → EReal)
    (wp : Fin 32 → EReal) (cp : EReal) : EReal :=
  (∑ l : Fin 32, hidden2 a b ω wc wd c1 W2T c2 l * wp l) + cp

/-- A NumPy index into an axis of 100000 entries, as a 32-bit word: a negative index counts from the end. -/
def wrapWord (w : BitVec 32) : BitVec 32 := Scalar.select (IntOp.cmpi .slt w 0#32) (IntOp.addi w 100000#32) w

/-- The table row a gather reads for the index word w: the wrapped word read signed and clamped into the table. -/
def rowOf (w : BitVec 32) : Fin 100000 := ⟨min (wrapWord w).toInt.toNat 99999, by omega⟩

end Cert.Score

end
-- ==== Proof.EdgeRange.lean ====
/-
  The index words are in range, and an in-range word names a row of the table.

  The precondition's first two conjuncts say: every word of the edge array, read as a signed integer, lies in
  [-100000, 100000) — the indices NumPy-style indexing into an axis of 100000 rows accepts, a negative one counting
  from the end. For such a word w the wrapped word (w + 100000 if w < 0, else w) lies in [0, 99999]: the addition
  does not leave the 32-bit range, so it is the integers' addition.
-/
import proofs.«425991_j65300682768662_3_alg».proof.Pre_finite_inputs
import proofs.«425991_j65300682768662_3_alg».proof.Proof.Score
import Idealize.ShloMosaic.Lib.ReduceAll
import Idealize.ShloMosaic.Lib.ValueIdx

noncomputable section

namespace Cert.EdgeRange

open Idealize.ShloMosaic Cert.Score

/-- A one-bit word made from a Boolean is 1 exactly when the Boolean is true. -/
theorem ofBool_eq_one (b : Bool) : BitVec.ofBool b = 1#1 ↔ b = true := by cases b <;> decide

/-- The three signed comparisons used here, as the Booleans they test. -/
theorem cmpi_slt (x y : BitVec 32) : IntOp.cmpi .slt x y = BitVec.ofBool (x.slt y) := rfl
theorem cmpi_sge (x y : BitVec 32) : IntOp.cmpi .sge x y = BitVec.ofBool (y.sle x) := rfl
theorem cmpi_sle (x y : BitVec 32) : IntOp.cmpi .sle x y = BitVec.ofBool (x.sle y) := rfl

/-- The wrapped form of an in-range index word is a row number: between 0 and 99999 as a signed integer. -/
theorem wrap_range (w : BitVec 32) (h1 : -100000 ≤ w.toInt) (h2 : w.toInt < 100000) :
    0 ≤ (wrapWord w).toInt ∧ (wrapWord w).toInt ≤ 99999 := by
  unfold wrapWord Scalar.select IntOp.addi
  rw [cmpi_slt]
  have hz : (0#32 : BitVec 32).toInt = 0 := by decide
  by_cases hneg : w.toInt < 0
  · have hc : BitVec.ofBool (w.slt 0#32) = (1 : BitVec 1) :=
      (ofBool_eq_one _).mpr (by simp only [BitVec.slt, hz, decide_eq_true_eq]; exact hneg)
    rw [if_pos hc]
    have hk : (100000#32 : BitVec 32).toInt = 100000 := by decide
    have ha : (w + 100000#32).toInt = w.toInt + 100000 := by
      rw [BitVec.toInt_add, hk]
      exact Int.bmod_eq_of_le_mul_two (by omega) (by omega)
    omega
  · have hc : ¬ BitVec.ofBool (w.slt 0#32) = (1 : BitVec 1) := fun hh =>
      hneg (by have := (ofBool_eq_one _).mp hh; simp only [BitVec.slt, hz, decide_eq_true_eq] at this; exact this)
    rw [if_neg hc]
    omega

/-- So the wrapped word passes the gather's two bounds tests: 0 ≤ it and it ≤ 99999, as signed comparisons. -/
theorem wrap_sge (w : BitVec 32) (h1 : -100000 ≤ w.toInt) (h2 : w.toInt < 100000) :
    IntOp.cmpi .sge (wrapWord w) 0#32 = 1#1 := by
  have hz : (0#32 : BitVec 32).toInt = 0 := by decide
  rw [cmpi_sge, ofBool_eq_one]
  simp only [BitVec.sle, hz, decide_eq_true_eq]
  exact (wrap_range w h1 h2).1

theorem wrap_sle (w : BitVec 32) (h1 : -100000 ≤ w.toInt) (h2 : w.toInt < 100000) :
    IntOp.cmpi .sle (wrapWord w) 99999#32 = 1#1 := by
  have hk : (99999#32 : BitVec 32).toInt = 99999 := by decide
  rw [cmpi_sle, ofBool_eq_one]
  simp only [BitVec.sle, hk, decide_eq_true_eq]
  exact (wrap_range w h1 h2).2

/-- The scalar shape has one index. -/
instance : Subsingleton Cert.Pre_finite_inputs.S_.Idx := ⟨fun a b => funext fun d => d.elim0⟩

open Cert.Pre_finite_inputs in
/-- THE RANGE OF THE INDEX WORDS, read off the precondition: where the printed predicate is all ones, every word of
    the edge array is at least -100000 and below 100000 as a signed integer. -/
theorem range_of_pre [Cert.Pre_finite_inputs.Facts] {F : FTy → Type} [FloatOps F]
    (E : IVec S1000000x2 32) (M : FVec F S100000x256 .f32) (ω : FVec F S1x256 .f32) (W1 : FVec F S64x2 .f32)
    (b1 : FVec F S64 .f32) (W2 : FVec F S32x64 .f32) (b2 : FVec F S32 .f32) (Wp : FVec F S1x32 .f32) (bp : FVec F S1 .f32)
    (h : Cert.Pre_finite_inputs.fn (F := F) E M ω W1 b1 W2 b2 Wp bp = fun _ => 1#1) (i : S1000000x2.Idx) :
    -100000 ≤ (E i).toInt ∧ (E i).toInt < 100000 := by
  have h0 : Cert.Pre_finite_inputs.fn (F := F) E M ω W1 b1 W2 b2 Wp bp ValueIdx.ix0 = 1#1 := congrFun h _
  unfold Cert.Pre_finite_inputs.fn Cert.Pre_finite_inputs.fn_part1 Cert.Pre_finite_inputs.fn_part2 at h0
  dsimp only at h0
  simp only [andi, IntOp.andi_eq_one] at h0
  obtain ⟨⟨⟨⟨⟨⟨⟨⟨⟨hA, hB⟩, -⟩, -⟩, -⟩, -⟩, -⟩, -⟩, -⟩, -⟩ := h0
  have hA' := Host.reduce_andi_all _ _ _ _ _ hA i
  have hB' := Host.reduce_andi_all _ _ _ _ _ hB i
  have hlo : (4294867296#32 : BitVec 32).toInt = -100000 := by decide
  have hhi : (100000#32 : BitVec 32).toInt = 100000 := by decide
  constructor
  · have : IntOp.cmpi .sge (E i) 4294867296#32 = 1#1 := hA'
    rw [cmpi_sge, ofBool_eq_one] at this
    simp only [BitVec.sle, hlo, decide_eq_true_eq] at this
    exact this
  · have : IntOp.cmpi .slt (E i) 100000#32 = 1#1 := hB'
    rw [cmpi_slt, ofBool_eq_one] at this
    simp only [BitVec.slt, hhi, decide_eq_true_eq] at this
    exact this

end Cert.EdgeRange

end
-- ==== Proof.LibRows.lean ====
/-
  General lemmas about reading whole rows out of a table, and two layout operations read at an index.

  * A gather of whole ROWS of an [N, D] table at an [n, 1] array of start indices (what `table[idx]` of a matrix by a
    vector of row numbers lowers to: the row axis collapsed, the column axis the one offset axis) reads, at (p, q), the
    table at (row, q) with row the p-th start index read signed and clamped into [0, N − 1].
  * A cast [a] → [a, 1] read at (p, 0) is the vector at p; a broadcast [a, 1] → [a, b] read at (p, c) is the column
    at (p, 0).
-/
import Idealize.ShloMosaic.Lib.ValueIdx
import Idealize.ShloMosaic.Lib.Pipeline.Value

noncomputable section

namespace Cert.LibRows

open Idealize.ShloMosaic Idealize.ShloMosaic.ValueIdx

variable {α : Type}

/-- The dimension numbers of a gather of whole rows: operand [N, D], start indices [n, 1], result [n, D]. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (p, q): the table at the p-th start index — read signed, clamped into [0, N − 1] — and
    column q. -/
theorem gather_rows_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowDims N D n wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowDims N D n wf).start (ix2 p q) idx 0 + (rowDims N D n wf).batchCoord (ix2 p q) 0
      + (rowDims N D n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 p q) ⟨List.idxOf (0 : Fin 2) (rowDims N D n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N D n wf).start (ix2 p q) idx 1 + (rowDims N D n wf).batchCoord (ix2 p q) 1
      + (rowDims N D n wf).offCoord (ix2 p q) 1 = q.val
    rw [GatherDims.batchCoord_eq_zero _ _ _ List.not_mem_nil]
    have hs : (rowDims N D n wf).start (ix2 p q) idx 1 = 0 := by
      unfold GatherDims.start
      rw [dif_neg (show ¬ (1 : Fin 2) ∈ (rowDims N D n wf).startIndexMap from
        fun h => absurd (congrArg Fin.val (List.mem_singleton.mp h)) (Nat.succ_ne_zero 0))]
    rw [hs]
    simp only [Nat.add_zero, Nat.zero_add]
    unfold GatherDims.offCoord
    rw [dif_pos (show (1 : Fin 2) ∈ (rowDims N D n wf).sKept from (GatherDims.mem_sKept _ _).mpr
      ⟨fun h => absurd (congrArg Fin.val (List.mem_singleton.mp h)) (Nat.succ_ne_zero 0), List.not_mem_nil⟩)]
    rfl

/-- A cast [a] → [a, 1] read at (p, 0) is the vector at p. -/
theorem shapeCast_a_a1_apply {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column [a, 1] broadcast to [a, b] read at (p, c) is the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRows

end
-- ==== Proof.KernelPayload.lean ====
/-
  What the kernel's body leaves in the output block, read at a row.

  The body works on a block of 4096 edges at a time: X and Y are the two [4096, 256] blocks of gathered table rows,
  q the [1, 256] row of squared weights. Its pieces, as whole-block terms:
    * the COLUMN OF WEIGHTED ROW SUMS  Σ_d X[r,d] · Y[r,d] · q[d]  (a lane sum kept as a [4096, 1] column),
    * the COSINE COLUMN: that sum for (X, Y) over the product of the two norms, each the square root of the sum for
      (X, X) resp. (Y, Y) clamped below by ε,
    * the first hidden block [4096, 64] (cosine · wc + sum · wd + bias, rectified), written as broadcasts,
    * the second hidden block [4096, 32] (a matrix product with the 64 × 32 weights, bias, rectified),
    * the output column [4096, 1] (a matrix product with the 32 × 1 weights, plus the bias).
  Each piece read at row r is the corresponding piece of the edge's score (Score.lean) of row r of X and row r of Y.
-/
import proofs.«425991_j65300682768662_3_alg».proof.Proof.Gen.KernelIdeal.Skeleton
import proofs.«425991_j65300682768662_3_alg».proof.Proof.Score
import proofs.«425991_j65300682768662_3_alg».proof.Proof.LibRows
import Idealize.ShloMosaic.PureOps.Ideal.Laws
import Idealize.ShloMosaic.Lib.ValueLayout
import Idealize.ShloMosaic.Lib.Pipeline.Value

noncomputable section

open scoped BigOperators

namespace Cert.KernelPayload

open Cert.KernelIdeal Cert.KernelIdeal.Gen
open Idealize.ShloMosaic Idealize.ShloMosaic.ValueIdx Cert.Score Cert.LibRows

/-! ## The pieces -/

/-- The column of weighted row sums of two blocks: Σ_d X[r,d] · Y[r,d] · q[d], kept as a [4096, 1] column. -/
def sumCol (X Y : FVec Ideal S4096x256 .f32) (q : FVec Ideal S1x256 .f32) : FVec Ideal S4096x1 .f32 :=
  shapeCast S4096x1 (multiReduction .add [1] S4096 (mulf (mulf X Y) (broadcastTo S4096x256 q broadcasts_S1x256_S4096x256))
    0x00000000#32 reduces_S4096x256_S4096 (.inl rfl) rfl) shapeCasts_S4096_S4096x1

/-- A norm column: the square root of the block's own weighted row sums, clamped below by ε. -/
def normCol (X : FVec Ideal S4096x256 .f32) (q : FVec Ideal S1x256 .f32) : FVec Ideal S4096x1 .f32 :=
  maximumf (sqrt (sumCol X X q)) (broadcast S4096x1 (Scalar.ofBits (F := Ideal) .f32 0x322BCC77#32))

/-- The cosine column. -/
def cosCol (X Y : FVec Ideal S4096x256 .f32) (q : FVec Ideal S1x256 .f32) : FVec Ideal S4096x1 .f32 :=
  divf (sumCol X Y q) (mulf (normCol X q) (normCol Y q))

/-- The first hidden block, before its bias: cosine · wc + sum · wd, the columns and rows broadcast to [4096, 64]. -/
def pre1Blk (X Y : FVec Ideal S4096x256 .f32) (q : FVec Ideal S1x256 .f32) (wc wd : FVec Ideal S1x64 .f32) :
    FVec Ideal S4096x64 .f32 :=
  addf (mulf (broadcastTo S4096x64 (cosCol X Y q) broadcasts_S4096x1_S4096x64) (broadcastTo S4096x64 wc broadcasts_S1x64_S4096x64))
    (mulf (broadcastTo S4096x64 (sumCol X Y q) broadcasts_S4096x1_S4096x64) (broadcastTo S4096x64 wd broadcasts_S1x64_S4096x64))

/-- The first hidden block: bias added, rectified. -/
def hid1Blk (P : FVec Ideal S4096x64 .f32) (c1 : FVec Ideal S1x64 .f32) : FVec Ideal S4096x64 .f32 :=
  maximumf (addf P (broadcastTo S4096x64 c1 broadcasts_S1x64_S4096x64)) (broadcast S4096x64 (Scalar.ofBits (F := Ideal) .f32 0x00000000#32))

/-- The second hidden block: the product with the 64 × 32 weights, bias added, rectified. -/
def hid2Blk (H : FVec Ideal S4096x64 .f32) (W : FVec Ideal S64x32 .f32) (c2 : FVec Ideal S1x32 .f32) : FVec Ideal S4096x32 .f32 :=
  maximumf (addf (matmul dot_S4096x64_S64x32_S4096x32_1_0_0_1_n_n none H W (constant S4096x32 .f32 0x00000000#32))
    (broadcastTo S4096x32 c2 broadcasts_S1x32_S4096x32)) (broadcast S4096x32 (Scalar.ofBits (F := Ideal) .f32 0x00000000#32))

/-- The output column: the product with the 32 × 1 weights, plus the bias. -/
def outCol (H : FVec Ideal S4096x32 .f32) (wp : FVec Ideal S32x1 .f32) (cp : FVec Ideal S1x1 .f32) : FVec Ideal S4096x1 .f32 :=
  addf (matmul dot_S4096x32_S32x1_S4096x1_1_0_0_1_n_n none H wp (constant S4096x1 .f32 0x00000000#32))
    (broadcastTo S4096x1 cp broadcasts_S1x1_S4096x1)

/-- The body's stored value is the composition of the pieces: the identity casts around the loaded blocks drop out. -/
theorem payload_eq (x0 x1 : FVec Ideal S4096x256 .f32) (x2 : FVec Ideal S1x256 .f32) (x3 x4 x5 : FVec Ideal S1x64 .f32)
    (x6 : FVec Ideal S64x32 .f32) (x7 : FVec Ideal S1x32 .f32) (x8 : FVec Ideal S32x1 .f32) (x9 : FVec Ideal S1x1 .f32) :
    k0_pay1 (F := Ideal) (k0_pay2 (F := Ideal) x5) (k0_pay3 (F := Ideal) x0 x1 x2 x3 x4) x6 x7 x8 x9
      = outCol (hid2Blk (hid1Blk (pre1Blk x0 x1 x2 x3 x4) x5) x6 x7) x8 x9 := by
  unfold k0_pay1 k0_pay2 k0_pay3 outCol hid2Blk hid1Blk pre1Blk cosCol normCol sumCol
  simp only [shapeCast_self]

/-! ## The pieces at a row -/

/-- The weighted row sum at row r. -/
theorem sumCol_apply (X Y : FVec Ideal S4096x256 .f32) (q : FVec Ideal S1x256 .f32) (r : Fin 4096) :
    sumCol X Y q (ix2 r (0 : Fin 1)) = ∑ d : Fin 256, X (ix2 r d) * Y (ix2 r d) * q (ix2 (0 : Fin 1) d) := by
  unfold sumCol
  refine (shapeCast_a_a1_apply _ shapeCasts_S4096_S4096x1 r).trans ?_
  refine (Ideal.multiReduction_add_single _ 0x00000000#32 reduces_S4096x256_S4096 (.inl rfl) rfl (ix1 r)).trans ?_
  show (∑ d : Fin 256, mulf (mulf X Y) (broadcastTo S4096x256 q broadcasts_S1x256_S4096x256)
      (reduces_S4096x256_S4096.lift (ix1 r) d)) = _
  refine Finset.sum_congr rfl fun (d : Fin 256) _ => ?_
  have hi : (reduces_S4096x256_S4096.lift (ix1 r) d : S4096x256.Idx) = ix2 r d :=
    funext fun a => Fin.ext (by match a with | ⟨0, _⟩ => rfl | ⟨1, _⟩ => rfl)
  rw [hi]
  show X (ix2 r d) * Y (ix2 r d) * broadcastTo S4096x256 q broadcasts_S1x256_S4096x256 (ix2 r d) = _
  exact congrArg (X (ix2 r d) * Y (ix2 r d) * ·) (broadcastTo_1b_ab_apply q broadcasts_S1x256_S4096x256 r d)

/-- The norm at row r. -/
theorem normCol_apply (X : FVec Ideal S4096x256 .f32) (q : FVec Ideal S1x256 .f32) (r : Fin 4096) :
    normCol X q (ix2 r (0 : Fin 1))
      = max (Ideal.sqrt (∑ d : Fin 256, X (ix2 r d) * X (ix2 r d) * q (ix2 (0 : Fin 1) d))) eps := by
  unfold normCol
  show max (Ideal.sqrt (sumCol X X q (ix2 r (0 : Fin 1)))) (Ideal.ofBits .f32 0x322BCC77#32) = _
  rw [sumCol_apply]

/-- The cosine at row r. -/
theorem cosCol_apply (X Y : FVec Ideal S4096x256 .f32) (q : FVec Ideal S1x256 .f32) (r : Fin 4096) :
    cosCol X Y q (ix2 r (0 : Fin 1))
      = Ideal.div (∑ d : Fin 256, X (ix2 r d) * Y (ix2 r d) * q (ix2 (0 : Fin 1) d))
          (max (Ideal.sqrt (∑ d : Fin 256, X (ix2 r d) * X (ix2 r d) * q (ix2 (0 : Fin 1) d))) eps
            * max (Ideal.sqrt (∑ d : Fin 256, Y (ix2 r d) * Y (ix2 r d) * q (ix2 (0 : Fin 1) d))) eps) := by
  unfold cosCol
  show Ideal.div (sumCol X Y q (ix2 r (0 : Fin 1))) (normCol X q (ix2 r (0 : Fin 1)) * normCol Y q (ix2 r (0 : Fin 1))) = _
  rw [sumCol_apply, normCol_apply, normCol_apply]

/-- The first hidden block before its bias, at (r, j). -/
theorem pre1Blk_apply (X Y : FVec Ideal S4096x256 .f32) (q : FVec Ideal S1x256 .f32) (wc wd : FVec Ideal S1x64 .f32)
    (r : Fin 4096) (j : Fin 64) :
    pre1Blk X Y q wc wd (ix2 r j)
      = cosCol X Y q (ix2 r (0 : Fin 1)) * wc (ix2 (0 : Fin 1) j) + sumCol X Y q (ix2 r (0 : Fin 1)) * wd (ix2 (0 : Fin 1) j) := by
  unfold pre1Blk
  show broadcastTo S4096x64 (cosCol X Y q) broadcasts_S4096x1_S4096x64 (ix2 r j) * broadcastTo S4096x64 wc broadcasts_S1x64_S4096x64 (ix2 r j)
      + broadcastTo S4096x64 (sumCol X Y q) broadcasts_S4096x1_S4096x64 (ix2 r j) * broadcastTo S4096x64 wd broadcasts_S1x64_S4096x64 (ix2 r j) = _
  rw [broadcastTo_a1_ab_apply, broadcastTo_a1_ab_apply, broadcastTo_1b_ab_apply, broadcastTo_1b_ab_apply]

/-- The first hidden block at (r, j). -/
theorem hid1Blk_apply (P : FVec Ideal S4096x64 .f32) (c1 : FVec Ideal S1x64 .f32) (r : Fin 4096) (j : Fin 64) :
    hid1Blk P c1 (ix2 r j) = max (P (ix2 r j) + c1 (ix2 (0 : Fin 1) j)) 0 := by
  unfold hid1Blk
  show max (P (ix2 r j) + broadcastTo S4096x64 c1 broadcasts_S1x64_S4096x64 (ix2 r j)) (Ideal.ofBits .f32 0x00000000#32) = _
  rw [broadcastTo_1b_ab_apply, Ideal.ofBits_zero_f32]

/-! ## The two matrix products at an index

Each is, at an output index, the sum over the one contracted coordinate of the operands' products: the operand indices
of the product's dimension numbers are (row, k) on the left and (k, column) on the right. -/

theorem lhs64_0 (i : S4096x32.Idx) (q : dot_S4096x64_S64x32_S4096x32_1_0_0_1_n_n.contr.Idx) :
    (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem lhs64_1 (i : S4096x32.Idx) (q : dot_S4096x64_S64x32_S4096x32_1_0_0_1_n_n.contr.Idx) :
    (dot_S4096x64_S64x32_S4096x32_1_0_0_1_n_n.lhsIdx i q 1).val = (q ⟨0, by decide⟩).val :=
  dot_S4096x64_S64x32_S4096x32_1_0_0_1_n_n.lhsIdx_val_of_single rfl i q
theorem rhs64_0 (i : S4096x32.Idx) (q : dot_S4096x64_S64x32_S4096x32_1_0_0_1_n_n.contr.Idx) :
    (dot_S4096x64_S64x32_S4096x32_1_0_0_1_n_n.rhsIdx i q 0).val = (q ⟨0, by decide⟩).val :=
  dot_S4096x64_S64x32_S4096x32_1_0_0_1_n_n.rhsIdx_val_of_single rfl i q
theorem rhs64_1 (i : S4096x32.Idx) (q : dot_S4096x64_S64x32_S4096x32_1_0_0_1_n_n.contr.Idx) :
    (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

/-- The product with the 64 × 32 matrix, into a zero accumulator, at (r, l): Σ_j H[r,j] · W[j,l]. -/
theorem mat64_apply (H : FVec Ideal S4096x64 .f32) (W : FVec Ideal S64x32 .f32) (r : Fin 4096) (l : Fin 32) :
    matmul dot_S4096x64_S64x32_S4096x32_1_0_0_1_n_n none H W (constant S4096x32 .f32 0x00000000#32) (ix2 r l)
      = ∑ j : Fin 64, H (ix2 r j) * W (ix2 j l) := by
  simp only [matmul]
  rw [Ideal.matmul_constant_zero_apply, ← Equiv.sum_comp (ValueIdx.contrEquiv1 dot_S4096x64_S64x32_S4096x32_1_0_0_1_n_n 64 rfl rfl).symm]
  refine Finset.sum_congr rfl fun k _ => ?_
  have hk := ValueIdx.contrEquiv1_symm_val dot_S4096x64_S64x32_S4096x32_1_0_0_1_n_n 64 rfl rfl k
  have el : dot_S4096x64_S64x32_S4096x32_1_0_0_1_n_n.lhsIdx (ix2 r l) ((ValueIdx.contrEquiv1 dot_S4096x64_S64x32_S4096x32_1_0_0_1_n_n 64 rfl rfl).symm k) = ix2 r k := funext fun a => Fin.ext (by
    match a with
    | ⟨0, _⟩ => exact lhs64_0 _ _
    | ⟨1, _⟩ => exact (lhs64_1 _ _).trans hk)
  have er : dot_S4096x64_S64x32_S4096x32_1_0_0_1_n_n.rhsIdx (ix2 r l) ((ValueIdx.contrEquiv1 dot_S4096x64_S64x32_S4096x32_1_0_0_1_n_n 64 rfl rfl).symm k) = ix2 k l := funext fun a => Fin.ext (by
    match a with
    | ⟨0, _⟩ => exact (rhs64_0 _ _).trans hk
    | ⟨1, _⟩ => exact rhs64_1 _ _)
  rw [el, er]

theorem lhs32_0 (i : S4096x1.Idx) (q : dot_S4096x32_S32x1_S4096x1_1_0_0_1_n_n.contr.Idx) :
    (dot_S4096x32_S32x1_S4096x1_1_0_0_1_n_n.lhsIdx i q 0).val = (i 0).val := by
  unfold DotDims.lhsIdx
  rw [dif_neg (show ¬(0 : Fin S4096x32.rank) ∈ dot_S4096x32_S32x1_S4096x1_1_0_0_1_n_n.lhsBatch by decide), dif_pos (show (0 : Fin S4096x32.rank) ∈ dot_S4096x32_S32x1_S4096x1_1_0_0_1_n_n.lhsNonContracting by decide)]
  rfl
theorem lhs32_1 (i : S4096x1.Idx) (q : dot_S4096x32_S32x1_S4096x1_1_0_0_1_n_n.contr.Idx) :
    (dot_S4096x32_S32x1_S4096x1_1_0_0_1_n_n.lhsIdx i q 1).val = (q ⟨0, by decide⟩).val :=
  dot_S4096x32_S32x1_S4096x1_1_0_0_1_n_n.lhsIdx_val_of_single rfl i q
theorem rhs32_0 (i : S4096x1.Idx) (q : dot_S4096x32_S32x1_S4096x1_1_0_0_1_n_n.contr.Idx) :
    (dot_S4096x32_S32x1_S4096x1_1_0_0_1_n_n.rhsIdx i q 0).val = (q ⟨0, by decide⟩).val :=
  dot_S4096x32_S32x1_S4096x1_1_0_0_1_n_n.rhsIdx_val_of_single rfl i q
theorem rhs32_1 (i : S4096x1.Idx) (q : dot_S4096x32_S32x1_S4096x1_1_0_0_1_n_n.contr.Idx) :
    (dot_S4096x32_S32x1_S4096x1_1_0_0_1_n_n.rhsIdx i q 1).val = (i 1).val := by
  unfold DotDims.rhsIdx
  rw [dif_neg (show ¬(1 : Fin S32x1.rank) ∈ dot_S4096x32_S32x1_S4096x1_1_0_0_1_n_n.rhsBatch by decide), dif_pos (show (1 : Fin S32x1.rank) ∈ dot_S4096x32_S32x1_S4096x1_1_0_0_1_n_n.rhsNonContracting by decide)]
  rfl

/-- The product with the 32 × 1 matrix, into a zero accumulator, at (r, 0): Σ_l H[r,l] · w[l,0]. -/
theorem mat32_apply (H : FVec Ideal S4096x32 .f32) (W : FVec Ideal S32x1 .f32) (r : Fin 4096) :
    matmul dot_S4096x32_S32x1_S4096x1_1_0_0_1_n_n none H W (constant S4096x1 .f32 0x00000000#32) (ix2 r (0 : Fin 1))
      = ∑ l : Fin 32, H (ix2 r l) * W (ix2 l (0 : Fin 1)) := by
  simp only [matmul]
  rw [Ideal.matmul_constant_zero_apply, ← Equiv.sum_comp (ValueIdx.contrEquiv1 dot_S4096x32_S32x1_S4096x1_1_0_0_1_n_n 32 rfl rfl).symm]
  refine Finset.sum_congr rfl fun k _ => ?_
  have hk := ValueIdx.contrEquiv1_symm_val dot_S4096x32_S32x1_S4096x1_1_0_0_1_n_n 32 rfl rfl k
  have el : dot_S4096x32_S32x1_S4096x1_1_0_0_1_n_n.lhsIdx (ix2 r (0 : Fin 1)) ((ValueIdx.contrEquiv1 dot_S4096x32_S32x1_S4096x1_1_0_0_1_n_n 32 rfl rfl).symm k) = ix2 r k := funext fun a => Fin.ext (by
    match a with
    | ⟨0, _⟩ => exact lhs32_0 _ _
    | ⟨1, _⟩ => exact (lhs32_1 _ _).trans hk)
  have er : dot_S4096x32_S32x1_S4096x1_1_0_0_1_n_n.rhsIdx (ix2 r (0 : Fin 1)) ((ValueIdx.contrEquiv1 dot_S4096x32_S32x1_S4096x1_1_0_0_1_n_n 32 rfl rfl).symm k) = ix2 k (0 : Fin 1) := funext fun a => Fin.ext (by
    match a with
    | ⟨0, _⟩ => exact (rhs32_0 _ _).trans hk
    | ⟨1, _⟩ => exact rhs32_1 _ _)
  rw [el, er]

/-- The second hidden block at (r, l). -/
theorem hid2Blk_apply (H : FVec Ideal S4096x64 .f32) (W : FVec Ideal S64x32 .f32) (c2 : FVec Ideal S1x32 .f32) (r : Fin 4096) (l : Fin 32) :
    hid2Blk H W c2 (ix2 r l) = max ((∑ j : Fin 64, H (ix2 r j) * W (ix2 j l)) + c2 (ix2 (0 : Fin 1) l)) 0 := by
  unfold hid2Blk
  show max (matmul dot_S4096x64_S64x32_S4096x32_1_0_0_1_n_n none H W (constant S4096x32 .f32 0x00000000#32) (ix2 r l)
      + broadcastTo S4096x32 c2 broadcasts_S1x32_S4096x32 (ix2 r l)) (Ideal.ofBits .f32 0x00000000#32) = _
  rw [mat64_apply, broadcastTo_1b_ab_apply, Ideal.ofBits_zero_f32]

/-- The output column at row r. -/
theorem outCol_apply (H : FVec Ideal S4096x32 .f32) (wp : FVec Ideal S32x1 .f32) (cp : FVec Ideal S1x1 .f32) (r : Fin 4096) :
    outCol H wp cp (ix2 r (0 : Fin 1)) = (∑ l : Fin 32, H (ix2 r l) * wp (ix2 l (0 : Fin 1))) + cp (ix2 (0 : Fin 1) (0 : Fin 1)) := by
  unfold outCol
  show matmul dot_S4096x32_S32x1_S4096x1_1_0_0_1_n_n none H wp (constant S4096x1 .f32 0x00000000#32) (ix2 r (0 : Fin 1))
      + broadcastTo S4096x1 cp broadcasts_S1x1_S4096x1 (ix2 r (0 : Fin 1)) = _
  rw [mat32_apply, broadcastTo_1b_ab_apply]

/-! ## The stored value at a row is the score -/

/-- THE BODY'S VALUE AT ROW r of the output block: the score of row r of the two row blocks, for squared weights
    q[d] = ω_d · ω_d. -/
theorem payload_score (x0 x1 : FVec Ideal S4096x256 .f32) (x2 : FVec Ideal S1x256 .f32) (x3 x4 x5 : FVec Ideal S1x64 .f32)
    (x6 : FVec Ideal S64x32 .f32) (x7 : FVec Ideal S1x32 .f32) (x8 : FVec Ideal S32x1 .f32) (x9 : FVec Ideal S1x1 .f32)
    (ω : Fin 256 → EReal) (hq : ∀ d : Fin 256, x2 (ix2 (0 : Fin 1) d) = ω d * ω d) (r : Fin 4096) :
    k0_pay1 (F := Ideal) (k0_pay2 (F := Ideal) x5) (k0_pay3 (F := Ideal) x0 x1 x2 x3 x4) x6 x7 x8 x9 (ix2 r (0 : Fin 1))
      = score (fun d => x0 (ix2 r d)) (fun d => x1 (ix2 r d)) ω
          (fun j => x3 (ix2 (0 : Fin 1) j)) (fun j => x4 (ix2 (0 : Fin 1) j)) (fun j => x5 (ix2 (0 : Fin 1) j))
          (fun j l => x6 (ix2 j l)) (fun l => x7 (ix2 (0 : Fin 1) l)) (fun l => x8 (ix2 l (0 : Fin 1)))
          (x9 (ix2 (0 : Fin 1) (0 : Fin 1))) := by
  have hs : ∀ (X Y : FVec Ideal S4096x256 .f32),
      (∑ d : Fin 256, X (ix2 r d) * Y (ix2 r d) * x2 (ix2 (0 : Fin 1) d)) = wdot (fun d => X (ix2 r d)) (fun d => Y (ix2 r d)) ω :=
    fun X Y => Finset.sum_congr rfl fun d _ => by rw [hq d]
  have h1 : ∀ j : Fin 64, hid1Blk (pre1Blk x0 x1 x2 x3 x4) x5 (ix2 r j)
      = hidden1 (fun d => x0 (ix2 r d)) (fun d => x1 (ix2 r d)) ω (fun j => x3 (ix2 (0 : Fin 1) j)) (fun j => x4 (ix2 (0 : Fin 1) j))
          (fun j => x5 (ix2 (0 : Fin 1) j)) j := by
    intro j
    rw [hid1Blk_apply, pre1Blk_apply, cosCol_apply, sumCol_apply, hs, hs, hs]
    rfl
  have h2 : ∀ l : Fin 32, hid2Blk (hid1Blk (pre1Blk x0 x1 x2 x3 x4) x5) x6 x7 (ix2 r l)
      = hidden2 (fun d => x0 (ix2 r d)) (fun d => x1 (ix2 r d)) ω (fun j => x3 (ix2 (0 : Fin 1) j)) (fun j => x4 (ix2 (0 : Fin 1) j))
          (fun j => x5 (ix2 (0 : Fin 1) j)) (fun j l => x6 (ix2 j l)) (fun l => x7 (ix2 (0 : Fin 1) l)) l := by
    intro l
    rw [hid2Blk_apply]
    unfold hidden2
    refine congrArg (fun s => max (s + x7 (ix2 (0 : Fin 1) l)) 0) (Finset.sum_congr rfl fun j _ => ?_)
    rw [h1 j]
  rw [payload_eq, outCol_apply]
  unfold score
  refine congrArg (· + x9 (ix2 (0 : Fin 1) (0 : Fin 1))) (Finset.sum_congr rfl fun l _ => ?_)
  rw [h2 l]

end Cert.KernelPayload

end
-- ==== Proof.KernelBlocks.lean ====
/-
  From the blocks to the array: what the kernel's region leaves in its output array.

  The grid has 245 points; point t stages rows 4096·t … 4096·t + 4095 of the two gathered row arrays (windows 0, 1)
  and of the output column (window 10), and the whole of each small parameter array (windows 2 … 9, block index
  (0, 0) at every point). What point t writes back is, at local row r, the score of row 4096·t + r of the two row
  arrays — the body's value at a row (KernelPayload.lean) with each block read where the window puts it. The 245
  blocks of 4096 rows tile the 1003520 rows of the output, so the output array ends as one function of the arrays
  the region finds: at row p the score of row p of the two row arrays.

  The first part is stated for ANY contents A0 … A9 of the ten input arrays; the second instantiates it at what the
  region finds in them.
-/
import proofs.«425991_j65300682768662_3_alg».proof.Proof.Gen.KernelIdeal.Frame
import proofs.«425991_j65300682768662_3_alg».proof.Proof.KernelPayload
import Idealize.ShloMosaic.Lib.Pipeline.Value

set_option maxRecDepth 16384

noncomputable section

namespace Cert.KernelBlocks

open Cert.KernelIdeal Cert.KernelIdeal.Gen
open Idealize.ShloMosaic Idealize.ShloMosaic.TcCoe Idealize.ShloMosaic.ValueIdx Idealize.SL.Sem
open Idealize.ShloMosaic.Pipeline (Dat)
open Cert.Score Cert.KernelPayload

theorem hz : (![0, 0] : Fin 2 → Nat) = fun _ => 0 := funext fun a => by fin_cases a <;> rfl

/-! ## The index maps, decided over the grid -/

theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

theorem idx_params : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem t_lt (t : Fin cfg0.N) : t.val < 245 := by have h := t.isLt; have hN : cfg0.N = 245 := N_0; omega

/-! ## For any contents of the input arrays -/

section AnyContents

variable (A0 A1 : FVec Ideal S1003520x256 .f32) (A2 : FVec Ideal S1x256 .f32) (A3 A4 A5 : FVec Ideal S1x64 .f32)
  (A6 : FVec Ideal S64x32 .f32) (A7 : FVec Ideal S1x32 .f32) (A8 : FVec Ideal S32x1 .f32) (A9 : FVec Ideal S1x1 .f32)

/-- The score of row p of two row arrays A0, A1 against parameter arrays A3 … A9, for squared weights ω_d · ω_d. -/
def rowScore (ω : Fin 256 → EReal) (p : Fin 1003520) : EReal :=
  score (fun d => A0 (ix2 p d)) (fun d => A1 (ix2 p d)) ω
    (fun j => A3 (ix2 (0 : Fin 1) j)) (fun j => A4 (ix2 (0 : Fin 1) j)) (fun j => A5 (ix2 (0 : Fin 1) j))
    (fun j l => A6 (ix2 j l)) (fun l => A7 (ix2 (0 : Fin 1) l)) (fun l => A8 (ix2 l (0 : Fin 1)))
    (A9 (ix2 (0 : Fin 1) (0 : Fin 1)))

/-- The column [1003520, 1] of all rows' scores. -/
def scoreCol (ω : Fin 256 → EReal) : FVec Ideal S1003520x1 .f32 :=
  fun i => rowScore A0 A1 A3 A4 A5 A6 A7 A8 A9 ω ⟨(i 0).val, idx2_lt0 i⟩

/-- Row r of window 0's block at point t is row 4096·t + r of its array. -/
theorem read0 (t : Fin cfg0.N) (r : Fin 4096) (d : Fin 256) :
    ((cfg0.win 0).blk t).view.read (Elt Ideal) A0 (ix2 r d) = A0 (ix2 ⟨t.val * 4096 + r.val, by have := t_lt t; omega⟩ d) := by
  show A0 (((cfg0.win 0).blk t).view.emb (ix2 r d)) = _
  refine congrArg A0 (funext fun a => Fin.ext ?_)
  obtain ⟨e0, e1, -⟩ := idx_rows t
  match a with
  | ⟨0, _⟩ => show win0_0.index t (0 : Fin 2) * 4096 + 1 * r.val = t.val * 4096 + r.val; rw [e0]; omega
  | ⟨1, _⟩ => show win0_0.index t (1 : Fin 2) * 256 + 1 * d.val = d.val; rw [e1]; omega

/-- Row r of window 1's block at point t is row 4096·t + r of its array. -/
theorem read1 (t : Fin cfg0.N) (r : Fin 4096) (d : Fin 256) :
    ((cfg0.win 1).blk t).view.read (Elt Ideal) A1 (ix2 r d) = A1 (ix2 ⟨t.val * 4096 + r.val, by have := t_lt t; omega⟩ d) := by
  show A1 (((cfg0.win 1).blk t).view.emb (ix2 r d)) = _
  refine congrArg A1 (funext fun a => Fin.ext ?_)
  obtain ⟨-, -, e0, e1, -⟩ := idx_rows t
  match a with
  | ⟨0, _⟩ => show win0_1.index t (0 : Fin 2) * 4096 + 1 * r.val = t.val * 4096 + r.val; rw [e0]; omega
  | ⟨1, _⟩ => show win0_1.index t (1 : Fin 2) * 256 + 1 * d.val = d.val; rw [e1]; omega

/-- Each parameter window's block is its whole array, at every point. -/
theorem read2 (t : Fin cfg0.N) : ((cfg0.win 2).blk t).view.read (Elt Ideal) A2 = A2 := by
  funext y
  show A2 (((cfg0.win 2).blk t).view.emb y) = A2 y
  refine congrArg A2 (funext fun a => Fin.ext ?_)
  obtain ⟨e0, e1, -⟩ := idx_params t
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega
theorem read3 (t : Fin cfg0.N) : ((cfg0.win 3).blk t).view.read (Elt Ideal) A3 = A3 := by
  funext y
  show A3 (((cfg0.win 3).blk t).view.emb y) = A3 y
  refine congrArg A3 (funext fun a => Fin.ext ?_)
  obtain ⟨-, -, e0, e1, -⟩ := idx_params t
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega
theorem read4 (t : Fin cfg0.N) : ((cfg0.win 4).blk t).view.read (Elt Ideal) A4 = A4 := by
  funext y
  show A4 (((cfg0.win 4).blk t).view.emb y) = A4 y
  refine congrArg A4 (funext fun a => Fin.ext ?_)
  obtain ⟨-, -, -, -, e0, e1, -⟩ := idx_params t
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega
theorem read5 (t : Fin cfg0.N) : ((cfg0.win 5).blk t).view.read (Elt Ideal) A5 = A5 := by
  funext y
  show A5 (((cfg0.win 5).blk t).view.emb y) = A5 y
  refine congrArg A5 (funext fun a => Fin.ext ?_)
  obtain ⟨-, -, -, -, -, -, e0, e1, -⟩ := idx_params t
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega
theorem read6 (t : Fin cfg0.N) : ((cfg0.win 6).blk t).view.read (Elt Ideal) A6 = A6 := by
  funext y
  show A6 (((cfg0.win 6).blk t).view.emb y) = A6 y
  refine congrArg A6 (funext fun a => Fin.ext ?_)
  obtain ⟨-, -, -, -, -, -, -, -, e0, e1, -⟩ := idx_params t
  match a with
  | ⟨0, _⟩ => show win0_6.index t (0 : Fin 2) * 64 + 1 * (y 0).val = (y 0).val; rw [e0]; omega
  | ⟨1, _⟩ => show win0_6.index t (1 : Fin 2) * 32 + 1 * (y 1).val = (y 1).val; rw [e1]; omega
theorem read7 (t : Fin cfg0.N) : ((cfg0.win 7).blk t).view.read (Elt Ideal) A7 = A7 := by
  funext y
  show A7 (((cfg0.win 7).blk t).view.emb y) = A7 y
  refine congrArg A7 (funext fun a => Fin.ext ?_)
  obtain ⟨-, -, -, -, -, -, -, -, -, -, e0, e1, -⟩ := idx_params t
  match a with
  | ⟨0, _⟩ => show win0_7.index t (0 : Fin 2) * 1 + 1 * (y 0).val = (y 0).val; rw [e0]; omega
  | ⟨1, _⟩ => show win0_7.index t (1 : Fin 2) * 32 + 1 * (y 1).val = (y 1).val; rw [e1]; omega
theorem read8 (t : Fin cfg0.N) : ((cfg0.win 8).blk t).view.read (Elt Ideal) A8 = A8 := by
  funext y
  show A8 (((cfg0.win 8).blk t).view.emb y) = A8 y
  refine congrArg A8 (funext fun a => Fin.ext ?_)
  obtain ⟨-, -, -, -, -, -, -, -, -, -, -, -, e0, e1, -⟩ := idx_params t
  match a with
  | ⟨0, _⟩ => show win0_8.index t (0 : Fin 2) * 32 + 1 * (y 0).val = (y 0).val; rw [e0]; omega
  | ⟨1, _⟩ => show win0_8.index t (1 : Fin 2) * 1 + 1 * (y 1).val = (y 1).val; rw [e1]; omega
theorem read9 (t : Fin cfg0.N) : ((cfg0.win 9).blk t).view.read (Elt Ideal) A9 = A9 := by
  funext y
  show A9 (((cfg0.win 9).blk t).view.emb y) = A9 y
  refine congrArg A9 (funext fun a => Fin.ext ?_)
  obtain ⟨-, -, -, -, -, -, -, -, -, -, -, -, -, -, e0, e1⟩ := idx_params t
  match a with
  | ⟨0, _⟩ => show win0_9.index t (0 : Fin 2) * 1 + 1 * (y 0).val = (y 0).val; rw [e0]; omega
  | ⟨1, _⟩ => show win0_9.index t (1 : Fin 2) * 1 + 1 * (y 1).val = (y 1).val; rw [e1]; omega

/-- WHAT THE BODY LEAVES AT POINT t, cut to the block the write-back moves, is block t of the score column: at local
    row r the score of row 4096·t + r. -/
theorem block_eq (ω : Fin 256 → EReal) (hq : ∀ d : Fin 256, A2 (ix2 (0 : Fin 1) d) = ω d * ω d) (t : Fin cfg0.N) :
    (cfg0.win 10).cut (grid0.coords t)
        (out0_10 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7)
          (((cfg0.win 8).blk t).view.read (Elt Ideal) A8) (((cfg0.win 9).blk t).view.read (Elt Ideal) A9))
      = ((cfg0.win 10).blk t).view.read (Elt Ideal) (scoreCol A0 A1 A3 A4 A5 A6 A7 A8 A9 ω) := by
  rw [read2, read3, read4, read5, read6, read7, read8, read9]
  unfold out0_10
  rw [View.canon_unit_zero hz]
  simp only [View.ld_unit_zero (S := S4096x256) hz, View.ld_unit_zero (S := S1x256) hz, View.ld_unit_zero (S := S1x64) hz,
    View.ld_unit_zero (S := S64x32) hz, View.ld_unit_zero (S := S1x32) hz, View.ld_unit_zero (S := S32x1) hz,
    View.ld_unit_zero (S := S1x1) hz]
  funext j
  obtain ⟨r, z, rfl⟩ : ∃ (r : Fin 4096) (z : Fin 1), j = ix2 r z := ⟨j 0, j 1, eq_ix2 j⟩
  obtain rfl : z = 0 := Subsingleton.elim _ _
  show k0_pay1 (F := Ideal) (k0_pay2 (F := Ideal) A5)
      (k0_pay3 (F := Ideal) (((cfg0.win 0).blk t).view.read (Elt Ideal) A0) (((cfg0.win 1).blk t).view.read (Elt Ideal) A1) A2 A3 A4)
      A6 A7 A8 A9 (ix2 r (0 : Fin 1))
    = scoreCol A0 A1 A3 A4 A5 A6 A7 A8 A9 ω (((cfg0.win 10).blk t).view.emb (ix2 r (0 : Fin 1)))
  refine (payload_score _ _ A2 A3 A4 A5 A6 A7 A8 A9 ω hq r).trans ?_
  have hp : (⟨((((cfg0.win 10).blk t).view.emb (ix2 r (0 : Fin 1))) 0).val, idx2_lt0 _⟩ : Fin 1003520)
      = ⟨t.val * 4096 + r.val, by have := t_lt t; omega⟩ := Fin.ext (by
    obtain ⟨-, -, -, -, e0, -⟩ := idx_rows t
    show win0_10.index t (0 : Fin 2) * 4096 + 1 * r.val = t.val * 4096 + r.val
    rw [e0]; omega)
  unfold scoreCol
  rw [hp]
  unfold rowScore
  have e0 : (fun d : Fin 256 => ((cfg0.win 0).blk t).view.read (Elt Ideal) A0 (ix2 r d))
      = fun d => A0 (ix2 ⟨t.val * 4096 + r.val, by have := t_lt t; omega⟩ d) := funext fun d => read0 A0 t r d
  have e1 : (fun d : Fin 256 => ((cfg0.win 1).blk t).view.read (Elt Ideal) A1 (ix2 r d))
      = fun d => A1 (ix2 ⟨t.val * 4096 + r.val, by have := t_lt t; omega⟩ d) := funext fun d => read1 A1 t r d
  exact congrArg₂ (fun a b => score a b ω (fun j => A3 (ix2 (0 : Fin 1) j)) (fun j => A4 (ix2 (0 : Fin 1) j))
    (fun j => A5 (ix2 (0 : Fin 1) j)) (fun j l => A6 (ix2 j l)) (fun l => A7 (ix2 (0 : Fin 1) l)) (fun l => A8 (ix2 l (0 : Fin 1)))
    (A9 (ix2 (0 : Fin 1) (0 : Fin 1)))) e0 e1

end AnyContents

/-! ## At what the region finds -/

section AtTheRegion

variable (m : (ℓ : Loc nD τ sig) → Buf (Elt Ideal) ℓ)

/-- The row of squared weights as the region finds it (window 2's array). -/
abbrev wsq (c : Dev nD) : FVec Ideal S1x256 .f32 := V m c (Pipeline.arrRef spec0 2)

/-- What the output array ends holding: the score column of the arrays the region finds in windows 0 … 9. -/
def outArr (c : Dev nD) (ω : Fin 256 → EReal) : FVec Ideal S1003520x1 .f32 :=
  scoreCol (V m c (Pipeline.arrRef spec0 0)) (V m c (Pipeline.arrRef spec0 1)) (V m c (Pipeline.arrRef spec0 3))
    (V m c (Pipeline.arrRef spec0 4)) (V m c (Pipeline.arrRef spec0 5)) (V m c (Pipeline.arrRef spec0 6))
    (V m c (Pipeline.arrRef spec0 7)) (V m c (Pipeline.arrRef spec0 8)) (V m c (Pipeline.arrRef spec0 9)) ω

/-- WHAT POINT t WRITES BACK is block t of that column. -/
theorem flushed_eq (c : Dev nD) (ω : Fin 256 → EReal) (hq : ∀ d : Fin 256, wsq m c (ix2 (0 : Fin 1) d) = ω d * ω d)
    (t : Fin cfg0.N) :
    (dats m 0 c).flushed 10 t = ((cfg0.win 10).blk t).view.read (Elt Ideal) (outArr m c ω) := by
  show (cfg0.win 10).cut (grid0.coords t) ((dats m 0 c).after 10 t) = _
  rw [after0_10]
  unfold iblk outArr
  exact block_eq _ _ _ _ _ _ _ _ _ _ ω hq t

/-- An index of the output array is in point t's block iff each coordinate is in the block's range on its axis. -/
theorem mem_blk (t : Fin cfg0.N) (i : S1003520x1.Idx) :
    i ∈ ((cfg0.win 10).blk t).view.set ↔ ∀ a : Fin 2, win0_10.index t a * S4096x1.size a ≤ (i a).val
      ∧ (i a).val < win0_10.index t a * S4096x1.size a + S4096x1.size a := by
  show i ∈ ((View.whole main_v19).slice (win0_10.rect t)).set ↔ _
  rw [View.set_slice_whole, Rect.mem_set_unit]
  exact Iff.rfl

/-- The blocks tile the output array: row p is in the block of point p / 4096. -/
theorem cover (i : S1003520x1.Idx) : ∃ t : Fin cfg0.N, (cfg0.win 10).flush t = true ∧ i ∈ ((cfg0.win 10).blk t).view.set := by
  have hi0 : (i 0).val < 1003520 := (i 0).isLt
  have hi1 : (i 1).val < 1 := (i 1).isLt
  have hN : cfg0.N = 245 := N_0
  have hlt : (i 0).val / 4096 < cfg0.N := by rw [hN]; omega
  refine ⟨⟨(i 0).val / 4096, hlt⟩, flush0_10 _, ?_⟩
  rw [mem_blk]
  obtain ⟨-, -, -, -, e0, e1⟩ := idx_rows ⟨(i 0).val / 4096, hlt⟩
  intro a
  match a with
  | ⟨0, _⟩ =>
    show win0_10.index ⟨(i 0).val / 4096, hlt⟩ (0 : Fin 2) * 4096 ≤ (i 0).val
      ∧ (i 0).val < win0_10.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win0_10.index ⟨(i 0).val / 4096, hlt⟩ (1 : Fin 2) * 1 ≤ (i 1).val
      ∧ (i 1).val < win0_10.index ⟨(i 0).val / 4096, hlt⟩ (1 : Fin 2) * 1 + 1
    rw [e1]; omega

/-- THE OUTPUT ARRAY after the run is the score column of the arrays the region finds. -/
theorem final (c : Dev nD) (ω : Fin 256 → EReal) (hq : ∀ d : Fin 256, wsq m c (ix2 (0 : Fin 1) d) = ω d * ω d) :
    (dats m 0 c).arrAt 10 cfg0.N = outArr m c ω :=
  (dats m 0 c).arrAt_eq_of_cover 10 (outArr m c ω) (fun t _ => flushed_eq m c ω hq t) cover

end AtTheRegion

end Cert.KernelBlocks

end
-- ==== Proof.KernelHost.lean ====
/-
  What the region finds in its ten input arrays, as functions of the program's arguments.

  Before the region the program pads the edge array with 3520 rows of zeros (so that the 1000000 edges fill 245
  blocks of 4096), takes its two columns, and for each column TAKES rows of the embedding table: the index word is
  wrapped (a negative index counts from the end), the table row at the wrapped word — clamped into the table — is
  gathered, and a row whose wrapped word is outside [0, 99999] is replaced by a fill value. For an index word in
  [-100000, 100000) the wrapped word is in [0, 99999], the fill is never chosen, and the taken row is the table row
  the word names. The parameters are re-laid: the weight row squared, the two columns of the first layer's matrix
  as rows, the other matrices transposed, the biases as rows.

  The first part is about the pure functions; the second says the region's arrays are those functions of the arguments.
-/
import proofs.«425991_j65300682768662_3_alg».proof.Proof.Gen.KernelIdeal.Frame
import proofs.«425991_j65300682768662_3_alg».proof.Proof.Score
import proofs.«425991_j65300682768662_3_alg».proof.Proof.LibRows
import proofs.«425991_j65300682768662_3_alg».proof.Proof.EdgeRange
import Idealize.ShloMosaic.Lib.Pipeline.Value
import Idealize.ShloMosaic.Lib.ValueLayout
import Idealize.ShloMosaic.Lib.StableHlo.Run
import Idealize.ShloMosaic.PureOps.Reduce

set_option maxRecDepth 16384

noncomputable section

namespace Cert.KernelHost

open Cert.KernelIdeal Cert.KernelIdeal.Gen
open Idealize.ShloMosaic Idealize.ShloMosaic.TcCoe Idealize.ShloMosaic.ValueIdx Idealize.SL.Sem
open Cert.Score Cert.LibRows Cert.EdgeRange

/-! ## A conjunction of ones is one -/

/-- A left fold by `and` from 1 over one-bit words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) 1#1 = 1#1 := by decide
    rw [List.foldl_cons, h a (List.mem_cons.mpr (Or.inl rfl)), e]
    exact foldl_andi_ones f l fun n hn => h n (List.mem_cons.mpr (Or.inr hn))

/-- A reduction by `and` from 1 is 1 at j when every operand element that reduces into j is 1. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_ones x _ fun i hi => hx i (of_decide_eq_true (List.mem_filter.mp hi).2)

/-! ## The padded edge columns and the take, as pure functions -/

/-- Column 0 of the edge array padded to 1003520 rows with zeros. -/
def padCol0 (E : IVec S1000000x2 32) : IVec S1003520 32 :=
  shapeCast S1003520 (extractStridedSlice S1003520x1 ![0, 0]
    (pad S1003520x2 ![0, 0] ![3520, 0] ![0, 0] E (id (constantI S_ 32 0#32)) pads_S1000000x2_S1003520x2_035200_000 h_S_)
    slices_S1003520x2_S1003520x1_0_0) shapeCasts_S1003520x1_S1003520

/-- Column 1 of the padded edge array. -/
def padCol1 (E : IVec S1000000x2 32) : IVec S1003520 32 :=
  shapeCast S1003520 (extractStridedSlice S1003520x1 ![0, 1]
    (pad S1003520x2 ![0, 0] ![3520, 0] ![0, 0] E (id (constantI S_ 32 0#32)) pads_S1000000x2_S1003520x2_035200_000 h_S_)
    slices_S1003520x2_S1003520x1_0_1) shapeCasts_S1003520x1_S1003520

/-- The start indices of the take: the wrapped index words, as a column. -/
def startCol (col : IVec S1003520 32) : IVec S1003520x1 32 :=
  broadcastInDim S1003520x1 ![0] bcast_S1003520_S1003520x1_0
    (select (cmpi .slt col (broadcastInDim S1003520 ![] bcast_S_S1003520 (constantI S_ 32 0#32)))
      (addi col (broadcastInDim S1003520 ![] bcast_S_S1003520 (constantI S_ 32 100000#32))) col)

/-- Which rows of the take are in range: 0 ≤ start ≤ 99999. -/
def okCol (col : IVec S1003520 32) : IVec S1003520 1 :=
  Host.reduce IntOp.andi
    (andi (cmpi .sge (startCol col) (broadcastInDim S1003520x1 ![] bcast_S_S1003520x1 (constantI S_ 32 0#32)))
      (cmpi .sle (startCol col) (broadcastInDim S1003520x1 ![0, 1] bcast_S1x1_S1003520x1_0_1
        (broadcastInDim S1x1 ![1] bcast_S1_S1x1_1 (constantI S1 32 99999#32)))))
    (constantI S_ 1 1#1) reducesTo_S1003520x1_S1003520_d1 h_S_

/-- The take: the gathered rows where in range, the fill value elsewhere. -/
def takeRows (M : FVec Ideal S100000x256 .f32) (col : IVec S1003520 32) : FVec Ideal S1003520x256 .f32 :=
  select (broadcastInDim S1003520x256 ![0] bcast_S1003520_S1003520x256_0 (okCol col))
    (Host.gather gather_S100000x256_S1003520x1_S1003520x256_1_0_n_n_0_1_1256 M (startCol col))
    (broadcastInDim S1003520x256 ![] bcast_S_S1003520x256 (constant (F := Ideal) S_ .f32 0x7FC00000#32))

/-- The start index of row p is the wrapped index word. -/
theorem startCol_apply (col : IVec S1003520 32) (p : Fin 1003520) :
    startCol col (ix2 p (0 : Fin 1)) = wrapWord (col (ix1 p)) := by
  unfold startCol
  refine (broadcastInDim_apply _ bcast_S1003520_S1003520x1_0 _ (ix2 p (0 : Fin 1)) (ix1 p) (fun a => ?_)).trans ?_
  · match a with
    | ⟨0, _⟩ => rfl
  · rfl

/-- A row whose index word is in range passes the take's bounds test. -/
theorem okCol_apply (col : IVec S1003520 32) (p : Fin 1003520)
    (h1 : -100000 ≤ (col (ix1 p)).toInt) (h2 : (col (ix1 p)).toInt < 100000) : okCol col (ix1 p) = 1#1 := by
  unfold okCol
  refine reduce_andi_ones _ _ _ _ _ rfl fun i hi => ?_
  obtain ⟨a, z, rfl⟩ : ∃ (a : Fin 1003520) (z : Fin 1), i = ix2 a z := ⟨i 0, i 1, eq_ix2 i⟩
  obtain rfl : z = 0 := Subsingleton.elim _ _
  have ha : a = p := by
    have h0 := congrFun hi (0 : Fin 1)
    exact Fin.ext (congrArg Fin.val h0)
  subst ha
  show IntOp.andi (IntOp.cmpi .sge (startCol col (ix2 a (0 : Fin 1))) 0#32) (IntOp.cmpi .sle (startCol col (ix2 a (0 : Fin 1))) 99999#32) = 1#1
  rw [startCol_apply, wrap_sge _ h1 h2, wrap_sle _ h1 h2]
  decide

/-- THE TAKE AT (p, d) for an index word in range: the table row the word names, at column d. -/
theorem takeRows_apply (M : FVec Ideal S100000x256 .f32) (col : IVec S1003520 32) (p : Fin 1003520) (d : Fin 256)
    (h1 : -100000 ≤ (col (ix1 p)).toInt) (h2 : (col (ix1 p)).toInt < 100000) :
    takeRows M col (ix2 p d) = M (ix2 (rowOf (col (ix1 p))) d) := by
  unfold takeRows
  show Scalar.select (broadcastInDim S1003520x256 ![0] bcast_S1003520_S1003520x256_0 (okCol col) (ix2 p d))
      (Host.gather gather_S100000x256_S1003520x1_S1003520x256_1_0_n_n_0_1_1256 M (startCol col) (ix2 p d)) _ = _
  have hb : broadcastInDim S1003520x256 ![0] bcast_S1003520_S1003520x256_0 (okCol col) (ix2 p d) = okCol col (ix1 p) :=
    broadcastInDim_apply _ bcast_S1003520_S1003520x256_0 _ (ix2 p d) (ix1 p) (fun a => by
      match a with
      | ⟨0, _⟩ => rfl)
  rw [hb, okCol_apply col p h1 h2, select_one]
  have hd : gather_S100000x256_S1003520x1_S1003520x256_1_0_n_n_0_1_1256
      = rowDims 100000 256 1003520 Facts₀.gather_S100000x256_S1003520x1_S1003520x256_1_0_n_n_0_1_1256_wf := rfl
  rw [hd, gather_rows_apply (by decide)]
  refine congrArg (fun r => M (ix2 r d)) (Fin.ext ?_)
  show min (startCol col (ix2 p (0 : Fin 1))).toInt.toNat (100000 - 1) = _
  rw [startCol_apply]
  rfl

/-- Below row 1000000 the padded column 0 is the edge array's column 0. -/
theorem padCol0_apply (E : IVec S1000000x2 32) (p : Fin 1003520) (hp : p.val < 1000000) :
    padCol0 E (ix1 p) = E (ix2 ⟨p.val, hp⟩ (0 : Fin 2)) := by
  unfold padCol0
  refine (shapeCast_apply _ shapeCasts_S1003520x1_S1003520 (ix1 p) (ix2 p (0 : Fin 1)) (by
    rw [Shape.rowMajor_val_two, Shape.rowMajor_val_one]; show p.val * 1 + 0 = p.val; omega)).trans ?_
  refine (extractStridedSlice_apply _ _ slices_S1003520x2_S1003520x1_0_0 (ix2 p (0 : Fin 1)) (ix2 p (0 : Fin 2)) (fun a => by
    match a with
    | ⟨0, _⟩ => exact (Nat.zero_add _).symm
    | ⟨1, _⟩ => rfl)).trans ?_
  unfold pad
  have hin : ∀ a : Fin S1000000x2.rank, (![0, 0] : Fin 2 → Nat) a ≤ ((ix2 p (0 : Fin 2)) (a.cast pads_S1000000x2_S1003520x2_035200_000.1)).val
      ∧ (((ix2 p (0 : Fin 2)) (a.cast pads_S1000000x2_S1003520x2_035200_000.1)).val - (![0, 0] : Fin 2 → Nat) a) % ((![0, 0] : Fin 2 → Nat) a + 1) = 0
      ∧ (((ix2 p (0 : Fin 2)) (a.cast pads_S1000000x2_S1003520x2_035200_000.1)).val - (![0, 0] : Fin 2 → Nat) a) / ((![0, 0] : Fin 2 → Nat) a + 1) < S1000000x2.size a := by
    intro a
    match a with
    | ⟨0, _⟩ => exact ⟨Nat.zero_le _, by show (p.val - 0) % (0 + 1) = 0; omega, by show (p.val - 0) / (0 + 1) < 1000000; omega⟩
    | ⟨1, _⟩ => exact ⟨Nat.zero_le _, by show (0 - 0) % (0 + 1) = 0; omega, by show (0 - 0) / (0 + 1) < 2; omega⟩
  rw [dif_pos hin]
  refine congrArg E (funext fun a => Fin.ext ?_)
  match a with
  | ⟨0, _⟩ => show (p.val - 0) / (0 + 1) = p.val; omega
  | ⟨1, _⟩ => show (0 - 0) / (0 + 1) = 0; omega

/-- Below row 1000000 the padded column 1 is the edge array's column 1. -/
theorem padCol1_apply (E : IVec S1000000x2 32) (p : Fin 1003520) (hp : p.val < 1000000) :
    padCol1 E (ix1 p) = E (ix2 ⟨p.val, hp⟩ (1 : Fin 2)) := by
  unfold padCol1
  refine (shapeCast_apply _ shapeCasts_S1003520x1_S1003520 (ix1 p) (ix2 p (0 : Fin 1)) (by
    rw [Shape.rowMajor_val_two, Shape.rowMajor_val_one]; show p.val * 1 + 0 = p.val; omega)).trans ?_
  refine (extractStridedSlice_apply _ _ slices_S1003520x2_S1003520x1_0_1 (ix2 p (0 : Fin 1)) (ix2 p (1 : Fin 2)) (fun a => by
    match a with
    | ⟨0, _⟩ => exact (Nat.zero_add _).symm
    | ⟨1, _⟩ => rfl)).trans ?_
  unfold pad
  have hin : ∀ a : Fin S1000000x2.rank, (![0, 0] : Fin 2 → Nat) a ≤ ((ix2 p (1 : Fin 2)) (a.cast pads_S1000000x2_S1003520x2_035200_000.1)).val
      ∧ (((ix2 p (1 : Fin 2)) (a.cast pads_S1000000x2_S1003520x2_035200_000.1)).val - (![0, 0] : Fin 2 → Nat) a) % ((![0, 0] : Fin 2 → Nat) a + 1) = 0
      ∧ (((ix2 p (1 : Fin 2)) (a.cast pads_S1000000x2_S1003520x2_035200_000.1)).val - (![0, 0] : Fin 2 → Nat) a) / ((![0, 0] : Fin 2 → Nat) a + 1) < S1000000x2.size a := by
    intro a
    match a with
    | ⟨0, _⟩ => exact ⟨Nat.zero_le _, by show (p.val - 0) % (0 + 1) = 0; omega, by show (p.val - 0) / (0 + 1) < 1000000; omega⟩
    | ⟨1, _⟩ => exact ⟨Nat.zero_le _, by show (1 - 0) % (0 + 1) = 0; omega, by show (1 - 0) / (0 + 1) < 2; omega⟩
  rw [dif_pos hin]
  refine congrArg E (funext fun a => Fin.ext ?_)
  match a with
  | ⟨0, _⟩ => show (p.val - 0) / (0 + 1) = p.val; omega
  | ⟨1, _⟩ => show (1 - 0) / (0 + 1) = 1; omega

/-! ## What the region finds -/

section AtTheRegion

variable (m : (ℓ : Loc nD τ sig) → Buf (Elt Ideal) ℓ)

/-- The program's arguments on core c, by their literal types: the edge array, the embedding table, the weight row,
    the three layers' matrices and biases. -/
abbrev argE (c : Dev nD) : IVec S1000000x2 32 := m ((c : Thread nD τ).loc main_arg0)
abbrev argM (c : Dev nD) : FVec Ideal S100000x256 .f32 := m ((c : Thread nD τ).loc main_arg1)
abbrev argW (c : Dev nD) : FVec Ideal S1x256 .f32 := m ((c : Thread nD τ).loc main_arg2)
abbrev argW1 (c : Dev nD) : FVec Ideal S64x2 .f32 := m ((c : Thread nD τ).loc main_arg3)
abbrev argB1 (c : Dev nD) : FVec Ideal S64 .f32 := m ((c : Thread nD τ).loc main_arg4)
abbrev argW2 (c : Dev nD) : FVec Ideal S32x64 .f32 := m ((c : Thread nD τ).loc main_arg5)
abbrev argB2 (c : Dev nD) : FVec Ideal S32 .f32 := m ((c : Thread nD τ).loc main_arg6)
abbrev argWp (c : Dev nD) : FVec Ideal S1x32 .f32 := m ((c : Thread nD τ).loc main_arg7)
abbrev argBp (c : Dev nD) : FVec Ideal S1 .f32 := m ((c : Thread nD τ).loc main_arg8)

/-- Running two stretches of operations one after the other is running the second over what the first left. -/
theorem after_append (L1 L2 : List (HloOp τ sig (Elt Ideal))) (W : Valuation τ sig (Elt Ideal)) :
    StableHlo.after (L1 ++ L2) W = StableHlo.after L2 (StableHlo.after L1 W) := by
  induction L1 generalizing W with
  | nil => rfl
  | cons op ops ih => exact ih _

/-- Contents carried to a typed reference's buffer and read back are the contents. -/
theorem ofBuf_toBuf {T : BufTy} (x : StableHlo.TRef sig T) (v : T.Contents (Elt Ideal)) : x.ofBuf (x.toBuf v) = v := by
  obtain ⟨r, h, h2, h3⟩ := x
  subst h
  rfl

/-- What core c's buffers hold after the first three stretches: the zero constant, the padding of the edge array,
    its two columns. -/
def U2 (c : Dev nD) : Valuation τ sig (Elt Ideal) :=
  StableHlo.after hostOps0_2 (StableHlo.after hostOps0_1 (StableHlo.after hostOps0 (fun b => m (c, b))))

/-- The region's entry contents: the two takes and the parameters' re-laying run over that. -/
theorem V0_eq (c : Dev nD) :
    V0 m c = StableHlo.after hostOps0_5 (StableHlo.after hostOps0_4 (StableHlo.after hostOps0_3 (U2 m c))) := by
  unfold U2
  dsimp only [V0]
  simp only [List.flatten_cons, List.flatten_nil, List.append_nil, after_append]

/-- The first take over ANY earlier contents U: the take of U's table at U's column 0. -/
theorem take0_core (U : Valuation τ sig (Elt Ideal)) :
    StableHlo.after hostOps0_5 (StableHlo.after hostOps0_4 (StableHlo.after hostOps0_3 U)) (Proc.devRef .tc main_v5)
      = (StableHlo.TRef.of main_v5 : StableHlo.TRef sig ⟨S1003520x256, .f32⟩).toBuf
          (takeRows ((StableHlo.TRef.of main_arg1 : StableHlo.TRef sig ⟨S100000x256, .f32⟩).ofBuf (U (Proc.devRef .tc main_arg1)))
            ((StableHlo.TRef.of main_v2 : StableHlo.TRef sig ⟨S1003520, .i32⟩).ofBuf (U (Proc.devRef .tc main_v2)))) := by
  simp only [hostOps0_3, hostOps0_4, hostOps0_5]
  after_results_simp
  simp only [ofBuf_toBuf]
  rfl

/-- The second take over any earlier contents U: the take of U's table at U's column 1. -/
theorem take1_core (U : Valuation τ sig (Elt Ideal)) :
    StableHlo.after hostOps0_5 (StableHlo.after hostOps0_4 (StableHlo.after hostOps0_3 U)) (Proc.devRef .tc main_v6)
      = (StableHlo.TRef.of main_v6 : StableHlo.TRef sig ⟨S1003520x256, .f32⟩).toBuf
          (takeRows ((StableHlo.TRef.of main_arg1 : StableHlo.TRef sig ⟨S100000x256, .f32⟩).ofBuf (U (Proc.devRef .tc main_arg1)))
            ((StableHlo.TRef.of main_v4 : StableHlo.TRef sig ⟨S1003520, .i32⟩).ofBuf (U (Proc.devRef .tc main_v4)))) := by
  simp only [hostOps0_3, hostOps0_4, hostOps0_5]
  after_results_simp
  simp only [ofBuf_toBuf]
  rfl

/-- After the first three stretches the table is the argument, -/
theorem tab_eq (c : Dev nD) :
    (StableHlo.TRef.of main_arg1 : StableHlo.TRef sig ⟨S100000x256, .f32⟩).ofBuf (U2 m c (Proc.devRef .tc main_arg1)) = argM m c := by
  unfold U2
  simp only [hostOps0, hostOps0_1, hostOps0_2]
  after_results_simp
  rfl

/-- column 0 is the padded edge column 0, -/
theorem col0_eq (c : Dev nD) :
    (StableHlo.TRef.of main_v2 : StableHlo.TRef sig ⟨S1003520, .i32⟩).ofBuf (U2 m c (Proc.devRef .tc main_v2)) = padCol0 (argE m c) := by
  unfold U2
  simp only [hostOps0, hostOps0_1, hostOps0_2]
  after_results_simp
  simp only [ofBuf_toBuf]
  rfl

/-- and column 1 the padded edge column 1. -/
theorem col1_eq (c : Dev nD) :
    (StableHlo.TRef.of main_v4 : StableHlo.TRef sig ⟨S1003520, .i32⟩).ofBuf (U2 m c (Proc.devRef .tc main_v4)) = padCol1 (argE m c) := by
  unfold U2
  simp only [hostOps0, hostOps0_1, hostOps0_2]
  after_results_simp
  simp only [ofBuf_toBuf]
  rfl

/-- Contents carried to the buffer of either take's result are the contents. -/
theorem toBuf_v5 (v : FVec Ideal S1003520x256 .f32) :
    ((StableHlo.TRef.of main_v5 : StableHlo.TRef sig ⟨S1003520x256, .f32⟩).toBuf (Val := Elt Ideal) v : FVec Ideal S1003520x256 .f32) = v := rfl
theorem toBuf_v6 (v : FVec Ideal S1003520x256 .f32) :
    ((StableHlo.TRef.of main_v6 : StableHlo.TRef sig ⟨S1003520x256, .f32⟩).toBuf (Val := Elt Ideal) v : FVec Ideal S1003520x256 .f32) = v := rfl

/-- Window 0's array: the take of the table at the padded edge column 0. -/
theorem arr0_eq (c : Dev nD) : (V m c (Pipeline.arrRef spec0 0) : FVec Ideal S1003520x256 .f32)
    = takeRows (argM m c) (padCol0 (argE m c)) := by
  have h := take0_core (U2 m c)
  rw [← V0_eq, tab_eq, col0_eq] at h
  exact h.trans (toBuf_v5 _)

/-- Window 1's array: the take at the padded edge column 1. -/
theorem arr1_eq (c : Dev nD) : (V m c (Pipeline.arrRef spec0 1) : FVec Ideal S1003520x256 .f32)
    = takeRows (argM m c) (padCol1 (argE m c)) := by
  have h := take1_core (U2 m c)
  rw [← V0_eq, tab_eq, col1_eq] at h
  exact h.trans (toBuf_v6 _)

/-- Window 2's array: the weight row times itself. -/
theorem arr2_eq (c : Dev nD) : (V m c (Pipeline.arrRef spec0 2) : FVec Ideal S1x256 .f32) = mulf (argW m c) (argW m c) := by
  show (V m c main_v7 : FVec Ideal S1x256 .f32) = _
  dsimp only [V, V0]
  simp only [hostOps0, hostOps0_1, hostOps0_2, hostOps0_3, hostOps0_4, hostOps0_5, List.flatten_cons, List.flatten_nil,
    List.append_nil, List.cons_append, List.nil_append]
  after_results_simp

/-- Window 3's array: column 0 of the first layer's matrix, as a row. -/
theorem arr3_eq (c : Dev nD) : (V m c (Pipeline.arrRef spec0 3) : FVec Ideal S1x64 .f32)
    = shapeCast S1x64 (shapeCast S64 (extractStridedSlice S64x1 ![0, 0] (argW1 m c) slices_S64x2_S64x1_0_0) shapeCasts_S64x1_S64)
        shapeCasts_S64_S1x64 := by
  show (V m c main_v10 : FVec Ideal S1x64 .f32) = _
  dsimp only [V, V0]
  simp only [hostOps0, hostOps0_1, hostOps0_2, hostOps0_3, hostOps0_4, hostOps0_5, List.flatten_cons, List.flatten_nil,
    List.append_nil, List.cons_append, List.nil_append]
  after_results_simp
  rfl

/-- Window 4's array: column 1 of the first layer's matrix, as a row. -/
theorem arr4_eq (c : Dev nD) : (V m c (Pipeline.arrRef spec0 4) : FVec Ideal S1x64 .f32)
    = shapeCast S1x64 (shapeCast S64 (extractStridedSlice S64x1 ![0, 1] (argW1 m c) slices_S64x2_S64x1_0_1) shapeCasts_S64x1_S64)
        shapeCasts_S64_S1x64 := by
  show (V m c main_v13 : FVec Ideal S1x64 .f32) = _
  dsimp only [V, V0]
  simp only [hostOps0, hostOps0_1, hostOps0_2, hostOps0_3, hostOps0_4, hostOps0_5, List.flatten_cons, List.flatten_nil,
    List.append_nil, List.cons_append, List.nil_append]
  after_results_simp
  rfl

/-- Window 5's array: the first layer's bias as a row. -/
theorem arr5_eq (c : Dev nD) : (V m c (Pipeline.arrRef spec0 5) : FVec Ideal S1x64 .f32)
    = shapeCast S1x64 (argB1 m c) shapeCasts_S64_S1x64 := by
  show (V m c main_v14 : FVec Ideal S1x64 .f32) = _
  dsimp only [V, V0]
  simp only [hostOps0, hostOps0_1, hostOps0_2, hostOps0_3, hostOps0_4, hostOps0_5, List.flatten_cons, List.flatten_nil,
    List.append_nil, List.cons_append, List.nil_append]
  after_results_simp
  rfl

/-- Window 6's array: the second layer's matrix transposed. -/
theorem arr6_eq (c : Dev nD) : (V m c (Pipeline.arrRef spec0 6) : FVec Ideal S64x32 .f32)
    = transpose S64x32 [1, 0] (argW2 m c) transposes_S32x64_S64x32_1_0 := by
  show (V m c main_v15 : FVec Ideal S64x32 .f32) = _
  dsimp only [V, V0]
  simp only [hostOps0, hostOps0_1, hostOps0_2, hostOps0_3, hostOps0_4, hostOps0_5, List.flatten_cons, List.flatten_nil,
    List.append_nil, List.cons_append, List.nil_append]
  after_results_simp

/-- Window 7's array: the second layer's bias as a row. -/
theorem arr7_eq (c : Dev nD) : (V m c (Pipeline.arrRef spec0 7) : FVec Ideal S1x32 .f32)
    = shapeCast S1x32 (argB2 m c) shapeCasts_S32_S1x32 := by
  show (V m c main_v16 : FVec Ideal S1x32 .f32) = _
  dsimp only [V, V0]
  simp only [hostOps0, hostOps0_1, hostOps0_2, hostOps0_3, hostOps0_4, hostOps0_5, List.flatten_cons, List.flatten_nil,
    List.append_nil, List.cons_append, List.nil_append]
  after_results_simp
  rfl

/-- Window 8's array: the read-out row transposed to a column. -/
theorem arr8_eq (c : Dev nD) : (V m c (Pipeline.arrRef spec0 8) : FVec Ideal S32x1 .f32)
    = transpose S32x1 [1, 0] (argWp m c) transposes_S1x32_S32x1_1_0 := by
  show (V m c main_v17 : FVec Ideal S32x1 .f32) = _
  dsimp only [V, V0]
  simp only [hostOps0, hostOps0_1, hostOps0_2, hostOps0_3, hostOps0_4, hostOps0_5, List.flatten_cons, List.flatten_nil,
    List.append_nil, List.cons_append, List.nil_append]
  after_results_simp

/-- Window 9's array: the read-out bias as a 1 × 1 array. -/
theorem arr9_eq (c : Dev nD) : (V m c (Pipeline.arrRef spec0 9) : FVec Ideal S1x1 .f32)
    = shapeCast S1x1 (argBp m c) shapeCasts_S1_S1x1 := by
  show (V m c main_v18 : FVec Ideal S1x1 .f32) = _
  dsimp only [V, V0]
  simp only [hostOps0, hostOps0_1, hostOps0_2, hostOps0_3, hostOps0_4, hostOps0_5, List.flatten_cons, List.flatten_nil,
    List.append_nil, List.cons_append, List.nil_append]
  after_results_simp
  rfl

end AtTheRegion

/-! ## The re-laid parameters at the coordinates the score reads -/

theorem col0_row_apply (W1 : FVec Ideal S64x2 .f32) (j : Fin 64) :
    shapeCast S1x64 (shapeCast S64 (extractStridedSlice S64x1 ![0, 0] W1 slices_S64x2_S64x1_0_0) shapeCasts_S64x1_S64)
        shapeCasts_S64_S1x64 (ix2 (0 : Fin 1) j) = W1 (ix2 j (0 : Fin 2)) := by
  refine (shapeCast_a_1a_apply _ shapeCasts_S64_S1x64 (0 : Fin 1) j).trans ?_
  refine (shapeCast_apply _ shapeCasts_S64x1_S64 (ix1 j) (ix2 j (0 : Fin 1)) (by
    rw [Shape.rowMajor_val_two, Shape.rowMajor_val_one]; show j.val * 1 + 0 = j.val; omega)).trans ?_
  exact slice2_axis1_apply 0 W1 slices_S64x2_S64x1_0_0 j (0 : Fin 1) (0 : Fin 2) rfl

theorem col1_row_apply (W1 : FVec Ideal S64x2 .f32) (j : Fin 64) :
    shapeCast S1x64 (shapeCast S64 (extractStridedSlice S64x1 ![0, 1] W1 slices_S64x2_S64x1_0_1) shapeCasts_S64x1_S64)
        shapeCasts_S64_S1x64 (ix2 (0 : Fin 1) j) = W1 (ix2 j (1 : Fin 2)) := by
  refine (shapeCast_a_1a_apply _ shapeCasts_S64_S1x64 (0 : Fin 1) j).trans ?_
  refine (shapeCast_apply _ shapeCasts_S64x1_S64 (ix1 j) (ix2 j (0 : Fin 1)) (by
    rw [Shape.rowMajor_val_two, Shape.rowMajor_val_one]; show j.val * 1 + 0 = j.val; omega)).trans ?_
  exact slice2_axis1_apply 1 W1 slices_S64x2_S64x1_0_1 j (0 : Fin 1) (1 : Fin 2) rfl

end Cert.KernelHost

end
-- ==== Proof.KernelTail.lean ====
/-
  The kernel program's result at edge e, as the score of the two table rows the edge names.

  After the region the program keeps the first 1000000 rows of the output column and flattens them. The output
  column holds at row p the score of row p of the two taken row arrays (KernelBlocks.lean); for p = e < 1000000 the
  padded edge columns are the edge array's own, the index words are in range by hypothesis, so each taken row is the
  table row the word names (KernelHost.lean); and the re-laid parameters read back as the arguments' entries.
-/
import proofs.«425991_j65300682768662_3_alg».proof.Proof.KernelBlocks
import proofs.«425991_j65300682768662_3_alg».proof.Proof.KernelHost

set_option maxRecDepth 16384

noncomputable section

namespace Cert.KernelTail

open Cert.KernelIdeal Cert.KernelIdeal.Gen
open Idealize.ShloMosaic Idealize.ShloMosaic.TcCoe Idealize.ShloMosaic.ValueIdx Idealize.SL.Sem Idealize.ShloMosaic.StableHlo
open Cert.Score Cert.LibRows Cert.KernelBlocks Cert.KernelHost

variable (m : (ℓ : Loc nD τ sig) → Buf (Elt Ideal) ℓ)

/-- The program's result after the lines that follow the region: the first 1000000 rows of the region's output
    column, flattened. -/
theorem tail_eq (c : Dev nD) :
    (Pipeline.afterTail₀ cfgs (dats m) 0 (V0 m) [hostOps1] c main_v21 : FVec Ideal S1000000 .f32)
      = shapeCast S1000000 (extractStridedSlice S1000000x1 ![0, 0] ((dats m 0 c).arrAt 10 cfg0.N : FVec Ideal S1003520x1 .f32)
          slices_S1003520x1_S1000000x1_0_0) shapeCasts_S1000000x1_S1000000 := by
  unfold Pipeline.afterTail₀
  show StableHlo.after hostOps1 _ (Proc.devRef .tc main_v21) = _
  after_results
  have hw : Pipeline.withArrays (cfgs 0).spec c (V0 m c) (fun w => (dats m 0 c).arrAt w (cfgs 0).N) (Proc.devRef .tc main_v19)
      = (dats m 0 c).arrAt 10 cfg0.N := Pipeline.withArrays_arr spec0 launch0.win.arr_inj c _ _ 10
  rw [hw]
  rfl

/-- The output column at row p is the score of row p of the arrays the region finds. -/
theorem outArr_apply (c : Dev nD) (ω : Fin 256 → EReal) (p : Fin 1003520) :
    outArr m c ω (ix2 p (0 : Fin 1))
      = rowScore (V m c (Pipeline.arrRef spec0 0)) (V m c (Pipeline.arrRef spec0 1)) (V m c (Pipeline.arrRef spec0 3))
          (V m c (Pipeline.arrRef spec0 4)) (V m c (Pipeline.arrRef spec0 5)) (V m c (Pipeline.arrRef spec0 6))
          (V m c (Pipeline.arrRef spec0 7)) (V m c (Pipeline.arrRef spec0 8)) (V m c (Pipeline.arrRef spec0 9)) ω p := rfl

/-- The squared weight row as the region finds it. -/
theorem wsq_apply (c : Dev nD) (d : Fin 256) :
    wsq m c (ix2 (0 : Fin 1) d) = argW m c (ix2 (0 : Fin 1) d) * argW m c (ix2 (0 : Fin 1) d) :=
  congrFun (arr2_eq m c) (ix2 (0 : Fin 1) d)

/-! ## The ten arrays the region finds, read where the score reads them -/

/-- Row e of the first taken row array is the table row the edge's first index word names. -/
theorem rowA_at (c : Dev nD)
    (hr : ∀ i : S1000000x2.Idx, -100000 ≤ (argE m c i).toInt ∧ (argE m c i).toInt < 100000) (e : Fin 1000000)
    (he : e.val < 1003520) :
    (fun d : Fin 256 => (V m c (Pipeline.arrRef spec0 0) : FVec Ideal S1003520x256 .f32) (ix2 ⟨e.val, he⟩ d))
      = fun d => argM m c (ix2 (rowOf (argE m c (ix2 e (0 : Fin 2)))) d) := by
  have hp0 : padCol0 (argE m c) (ix1 ⟨e.val, he⟩) = argE m c (ix2 e (0 : Fin 2)) := padCol0_apply _ ⟨e.val, he⟩ e.isLt
  funext d
  rw [arr0_eq, takeRows_apply _ _ _ d (by rw [hp0]; exact (hr _).1) (by rw [hp0]; exact (hr _).2), hp0]

/-- Row e of the second taken row array is the table row the edge's second index word names. -/
theorem rowB_at (c : Dev nD)
    (hr : ∀ i : S1000000x2.Idx, -100000 ≤ (argE m c i).toInt ∧ (argE m c i).toInt < 100000) (e : Fin 1000000)
    (he : e.val < 1003520) :
    (fun d : Fin 256 => (V m c (Pipeline.arrRef spec0 1) : FVec Ideal S1003520x256 .f32) (ix2 ⟨e.val, he⟩ d))
      = fun d => argM m c (ix2 (rowOf (argE m c (ix2 e (1 : Fin 2)))) d) := by
  have hp1 : padCol1 (argE m c) (ix1 ⟨e.val, he⟩) = argE m c (ix2 e (1 : Fin 2)) := padCol1_apply _ ⟨e.val, he⟩ e.isLt
  funext d
  rw [arr1_eq, takeRows_apply _ _ _ d (by rw [hp1]; exact (hr _).1) (by rw [hp1]; exact (hr _).2), hp1]

/-- The two columns of the first layer's matrix, its bias, the second layer's matrix and bias, the read-out row and
    bias, each read back from its re-laid array. -/
theorem wc_at (c : Dev nD) : (fun j : Fin 64 => (V m c (Pipeline.arrRef spec0 3) : FVec Ideal S1x64 .f32) (ix2 (0 : Fin 1) j))
    = fun j => argW1 m c (ix2 j (0 : Fin 2)) := funext fun j => by rw [arr3_eq, col0_row_apply]
theorem wd_at (c : Dev nD) : (fun j : Fin 64 => (V m c (Pipeline.arrRef spec0 4) : FVec Ideal S1x64 .f32) (ix2 (0 : Fin 1) j))
    = fun j => argW1 m c (ix2 j (1 : Fin 2)) := funext fun j => by rw [arr4_eq, col1_row_apply]
theorem b1_at (c : Dev nD) : (fun j : Fin 64 => (V m c (Pipeline.arrRef spec0 5) : FVec Ideal S1x64 .f32) (ix2 (0 : Fin 1) j))
    = fun j => argB1 m c (ix1 j) := funext fun j => by rw [arr5_eq, shapeCast_a_1a_apply]
theorem w2_at (c : Dev nD) : (fun (j : Fin 64) (l : Fin 32) => (V m c (Pipeline.arrRef spec0 6) : FVec Ideal S64x32 .f32) (ix2 j l))
    = fun j l => argW2 m c (ix2 l j) := funext fun j => funext fun l => by rw [arr6_eq, transpose_ix2_apply]
theorem b2_at (c : Dev nD) : (fun l : Fin 32 => (V m c (Pipeline.arrRef spec0 7) : FVec Ideal S1x32 .f32) (ix2 (0 : Fin 1) l))
    = fun l => argB2 m c (ix1 l) := funext fun l => by rw [arr7_eq, shapeCast_a_1a_apply]
theorem wp_at (c : Dev nD) : (fun l : Fin 32 => (V m c (Pipeline.arrRef spec0 8) : FVec Ideal S32x1 .f32) (ix2 l (0 : Fin 1)))
    = fun l => argWp m c (ix2 (0 : Fin 1) l) := funext fun l => by rw [arr8_eq, transpose_ix2_apply]
theorem bp_at (c : Dev nD) :
    (V m c (Pipeline.arrRef spec0 9) : FVec Ideal S1x1 .f32) (ix2 (0 : Fin 1) (0 : Fin 1)) = argBp m c (ix1 (0 : Fin 1)) := by
  rw [arr9_eq, shapeCast_a_1a_apply]

/-- The program's result at edge e is the output column at row e. -/
theorem result_row (c : Dev nD) (e : Fin 1000000) (he : e.val < 1003520) :
    (Pipeline.afterTail₀ cfgs (dats m) 0 (V0 m) [hostOps1] c main_v21 : FVec Ideal S1000000 .f32) (ix1 e)
      = outArr m c (fun d => argW m c (ix2 (0 : Fin 1) d)) (ix2 (⟨e.val, he⟩ : Fin 1003520) (0 : Fin 1)) := by
  rw [tail_eq m c, final m c (fun d => argW m c (ix2 (0 : Fin 1) d)) (wsq_apply m c)]
  refine (shapeCast_apply _ shapeCasts_S1000000x1_S1000000 (ix1 e) (ix2 e (0 : Fin 1)) (by
    rw [Shape.rowMajor_val_two, Shape.rowMajor_val_one]; show e.val * 1 + 0 = e.val; omega)).trans ?_
  exact slice2_axis0_apply 0 _ slices_S1003520x1_S1000000x1_0_0 e (0 : Fin 1) ⟨e.val, he⟩ (Nat.zero_add _).symm

/-- THE KERNEL PROGRAM'S RESULT AT EDGE e, for index words in range: the score of the table rows the edge's two
    index words name. -/
theorem result_at (c : Dev nD)
    (hr : ∀ i : S1000000x2.Idx, -100000 ≤ (argE m c i).toInt ∧ (argE m c i).toInt < 100000) (e : Fin 1000000) :
    (Pipeline.afterTail₀ cfgs (dats m) 0 (V0 m) [hostOps1] c main_v21 : FVec Ideal S1000000 .f32) (ix1 e)
      = score (fun d => argM m c (ix2 (rowOf (argE m c (ix2 e (0 : Fin 2)))) d))
          (fun d => argM m c (ix2 (rowOf (argE m c (ix2 e (1 : Fin 2)))) d))
          (fun d => argW m c (ix2 (0 : Fin 1) d))
          (fun j => argW1 m c (ix2 j (0 : Fin 2))) (fun j => argW1 m c (ix2 j (1 : Fin 2))) (fun j => argB1 m c (ix1 j))
          (fun j l => argW2 m c (ix2 l j)) (fun l => argB2 m c (ix1 l)) (fun l => argWp m c (ix2 (0 : Fin 1) l))
          (argBp m c (ix1 (0 : Fin 1))) := by
  have he : e.val < 1003520 := by have := e.isLt; omega
  rw [result_row m c e he, outArr_apply]
  unfold rowScore
  have h0 := congrArg score (rowA_at m c hr e he)
  have h1 := congr h0 (rowB_at m c hr e he)
  have h3 := congr (congr h1 (rfl : (fun d : Fin 256 => argW m c (ix2 (0 : Fin 1) d)) = fun d => argW m c (ix2 (0 : Fin 1) d))) (wc_at m c)
  have h9 := congr (congr (congr (congr (congr (congr h3 (wd_at m c)) (b1_at m c)) (w2_at m c)) (b2_at m c)) (wp_at m c)) (bp_at m c)
  exact h9

end Cert.KernelTail

end
-- ==== Proof.RefScore.lean ====
/-
  The reference's result at edge e is the score of the two table rows the edge names.

  Reading the reference's stages at an index, outermost first: the final reshape and the read-out layer (a sum over
  the 32 units plus the bias), the second layer (a sum over 64 units, bias, rectifier), the first layer (the pair
  (cosine, inner product) against the two columns of the weight matrix, bias, rectifier), the cosine (quotient of the
  inner product by the product of the clamped norms, each norm the square root of a row sum of squares), and the
  weighted rows themselves: a gathered table row times the weight row. The reference weights each row before it
  multiplies the two; regrouping term by term gives the score's inner product.
-/
import proofs.«425991_j65300682768662_3_alg».proof.Proof.Gen.ReferenceIdeal.Read
import proofs.«425991_j65300682768662_3_alg».proof.Proof.Score
import proofs.«425991_j65300682768662_3_alg».proof.Proof.LibRows

noncomputable section

namespace Cert.RefScore

open Cert.ReferenceIdeal Cert.ReferenceIdeal.Gen Cert.ReferenceIdeal.Read
open Idealize.ShloMosaic Idealize.ShloMosaic.ValueIdx Cert.Score Cert.LibRows

/-! ## The index words and the gathered rows -/

/-- The first index word of edge e, as the reference's flattened column 0 reads it. -/
theorem word_col0 (E : (⟨S1000000x2, .i32⟩ : BufTy).Contents (Elt Ideal)) (e : Fin 1000000) :
    val_main_v1 (F := Ideal) E (ix1 e) = E (ix2 e (0 : Fin 2)) := by
  rw [val_main_v1_apply, val_main_v0_apply]
  exact congrArg E (funext fun a => Fin.ext (by
    match a with
    | ⟨0, _⟩ => exact Nat.div_one _
    | ⟨1, _⟩ => rfl))

/-- The second index word of edge e, as the reference's flattened column 1 reads it. -/
theorem word_col1 (E : (⟨S1000000x2, .i32⟩ : BufTy).Contents (Elt Ideal)) (e : Fin 1000000) :
    val_main_v12 (F := Ideal) E (ix1 e) = E (ix2 e (1 : Fin 2)) := by
  rw [val_main_v12_apply, val_main_v11_apply]
  exact congrArg E (funext fun a => Fin.ext (by
    match a with
    | ⟨0, _⟩ => exact Nat.div_one _
    | ⟨1, _⟩ => rfl))

/-- The start index the first gather takes for edge e is the wrapped first index word. -/
theorem start0 (E : (⟨S1000000x2, .i32⟩ : BufTy).Contents (Elt Ideal)) (e : Fin 1000000) :
    val_main_v7 (F := Ideal) E (ix2 e (0 : Fin 1)) = wrapWord (E (ix2 e (0 : Fin 2))) := by
  have hi : idx_main_v7 (ix2 e (0 : Fin 1)) = ix1 e := funext fun a => match a with | ⟨0, _⟩ => rfl
  rw [val_main_v7_apply, hi, val_main_v6_apply, val_main_v3_apply, val_main_v5_apply, word_col0, val_main_v2_apply,
    val_main_v4_apply, val_main_c_apply, val_main_c_0_apply]
  rfl

/-- The start index the second gather takes for edge e is the wrapped second index word. -/
theorem start1 (E : (⟨S1000000x2, .i32⟩ : BufTy).Contents (Elt Ideal)) (e : Fin 1000000) :
    val_main_v18 (F := Ideal) E (ix2 e (0 : Fin 1)) = wrapWord (E (ix2 e (1 : Fin 2))) := by
  have hi : idx_main_v18 (ix2 e (0 : Fin 1)) = ix1 e := funext fun a => match a with | ⟨0, _⟩ => rfl
  rw [val_main_v18_apply, hi, val_main_v17_apply, val_main_v14_apply, val_main_v16_apply, word_col1, val_main_v13_apply,
    val_main_v15_apply, val_main_c_1_apply, val_main_c_2_apply]
  rfl

/-- The first gathered row of edge e is the table row its first index word names. -/
theorem row0 (E : (⟨S1000000x2, .i32⟩ : BufTy).Contents (Elt Ideal)) (M : (⟨S100000x256, .f32⟩ : BufTy).Contents (Elt Ideal)) (e : Fin 1000000) (d : Fin 256) :
    val_main_v8 (F := Ideal) E M (ix2 e d) = M (ix2 (rowOf (E (ix2 e (0 : Fin 2)))) d) := by
  unfold val_main_v8
  have hd : gather_S100000x256_S1000000x1_S1000000x256_1_0_n_n_0_1_1256
      = rowDims 100000 256 1000000 Facts₀.gather_S100000x256_S1000000x1_S1000000x256_1_0_n_n_0_1_1256_wf := rfl
  rw [hd, gather_rows_apply (by decide)]
  refine congrArg (fun r => M (ix2 r d)) (Fin.ext ?_)
  show min (val_main_v7 (F := Ideal) E (ix2 e (0 : Fin 1))).toInt.toNat (100000 - 1) = _
  rw [start0]
  rfl

/-- The second gathered row of edge e is the table row its second index word names. -/
theorem row1 (E : (⟨S1000000x2, .i32⟩ : BufTy).Contents (Elt Ideal)) (M : (⟨S100000x256, .f32⟩ : BufTy).Contents (Elt Ideal)) (e : Fin 1000000) (d : Fin 256) :
    val_main_v19 (F := Ideal) E M (ix2 e d) = M (ix2 (rowOf (E (ix2 e (1 : Fin 2)))) d) := by
  unfold val_main_v19
  have hd : gather_S100000x256_S1000000x1_S1000000x256_1_0_n_n_0_1_1256
      = rowDims 100000 256 1000000 Facts₀.gather_S100000x256_S1000000x1_S1000000x256_1_0_n_n_0_1_1256_wf := rfl
  rw [hd, gather_rows_apply (by decide)]
  refine congrArg (fun r => M (ix2 r d)) (Fin.ext ?_)
  show min (val_main_v18 (F := Ideal) E (ix2 e (0 : Fin 1))).toInt.toNat (100000 - 1) = _
  rw [start1]
  rfl

/-! ## The weighted rows -/

/-- The first weighted row: the gathered row times the weight row, entry by entry. -/
theorem wrow0 (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) (d : Fin 256) :
    val_main_v10 (F := Ideal) E M ω (ix2 e d) = M (ix2 (rowOf (E (ix2 e (0 : Fin 2)))) d) * ω (ix2 (0 : Fin 1) d) := by
  have hi : idx_main_v9 (ix2 e d) = ix2 (0 : Fin 1) d :=
    funext fun a => match a with | ⟨0, _⟩ => rfl | ⟨1, _⟩ => rfl
  rw [val_main_v10_apply, row0, val_main_v9_apply, hi]
  rfl

/-- The second weighted row. -/
theorem wrow1 (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) (d : Fin 256) :
    val_main_v21 (F := Ideal) E M ω (ix2 e d) = M (ix2 (rowOf (E (ix2 e (1 : Fin 2)))) d) * ω (ix2 (0 : Fin 1) d) := by
  have hi : idx_main_v20 (ix2 e d) = ix2 (0 : Fin 1) d :=
    funext fun a => match a with | ⟨0, _⟩ => rfl | ⟨1, _⟩ => rfl
  rw [val_main_v21_apply, row1, val_main_v20_apply, hi]
  rfl

/-! ## The inner product, the norms and the cosine -/

/-- The row sum of the product of the two weighted rows, with the zero it starts from, is the weighted inner product. -/
theorem dot_at (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) :
    val_main_v23 (F := Ideal) E M ω (ix1 e)
      = wdot (fun d => M (ix2 (rowOf (E (ix2 e (0 : Fin 2)))) d)) (fun d => M (ix2 (rowOf (E (ix2 e (1 : Fin 2)))) d))
          (fun d => ω (ix2 (0 : Fin 1) d)) := by
  rw [val_main_v23_apply, val_main_cst_apply, Ideal.ofBits_def, Ideal.ofBits_zero_f32, zero_add]
  refine Eq.trans ?_ (sum_weighted_rows _ _ _)
  refine Finset.sum_congr rfl fun k _ => ?_
  have hi : idx_main_v23 (ix1 e) k = ix2 e k := funext fun a => match a with | ⟨0, _⟩ => rfl | ⟨1, _⟩ => rfl
  rw [hi, val_main_v22_apply, wrow0, wrow1]
  rfl

/-- The first norm: the square root of the first weighted row's sum of squares. -/
theorem norm0_at (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) :
    val_main_v24 (F := Ideal) E M ω (ix1 e)
      = Ideal.sqrt (wdot (fun d => M (ix2 (rowOf (E (ix2 e (0 : Fin 2)))) d)) (fun d => M (ix2 (rowOf (E (ix2 e (0 : Fin 2)))) d))
          (fun d => ω (ix2 (0 : Fin 1) d))) := by
  rw [val_main_v24_apply, Ideal.hostUnary_sqrt_def, val_main_call0_v1_apply, val_main_call0_cst_apply, Ideal.ofBits_def,
    Ideal.ofBits_zero_f32, zero_add]
  refine congrArg Ideal.sqrt ?_
  refine Eq.trans ?_ (sum_weighted_rows _ _ _)
  refine Finset.sum_congr rfl fun k _ => ?_
  have hi : idx_main_call0_v1 (ix1 e) k = ix2 e k := funext fun a => match a with | ⟨0, _⟩ => rfl | ⟨1, _⟩ => rfl
  rw [hi, val_main_call0_v0_apply, wrow0]
  rfl

/-- The second norm. -/
theorem norm1_at (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) :
    val_main_v27 (F := Ideal) E M ω (ix1 e)
      = Ideal.sqrt (wdot (fun d => M (ix2 (rowOf (E (ix2 e (1 : Fin 2)))) d)) (fun d => M (ix2 (rowOf (E (ix2 e (1 : Fin 2)))) d))
          (fun d => ω (ix2 (0 : Fin 1) d))) := by
  rw [val_main_v27_apply, Ideal.hostUnary_sqrt_def, val_main_call1_v1_apply, val_main_call1_cst_apply, Ideal.ofBits_def,
    Ideal.ofBits_zero_f32, zero_add]
  refine congrArg Ideal.sqrt ?_
  refine Eq.trans ?_ (sum_weighted_rows _ _ _)
  refine Finset.sum_congr rfl fun k _ => ?_
  have hi : idx_main_call1_v1 (ix1 e) k = ix2 e k := funext fun a => match a with | ⟨0, _⟩ => rfl | ⟨1, _⟩ => rfl
  rw [hi, val_main_call1_v0_apply, wrow1]
  rfl

/-- The quotient of the inner product by the product of the two clamped norms is the cosine. -/
theorem cos_at (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) :
    val_main_v31 (F := Ideal) E M ω (ix1 e)
      = cosine (fun d => M (ix2 (rowOf (E (ix2 e (0 : Fin 2)))) d)) (fun d => M (ix2 (rowOf (E (ix2 e (1 : Fin 2)))) d))
          (fun d => ω (ix2 (0 : Fin 1) d)) := by
  rw [val_main_v31_apply, val_main_v30_apply, val_main_v26_apply, val_main_v29_apply, val_main_v25_apply, val_main_v28_apply,
    val_main_cst_3_apply, val_main_cst_4_apply, dot_at, norm0_at, norm1_at]
  rfl

/-! ## The pair (cosine, inner product) and the three layers -/

/-- Column 0 of the joined pair is the cosine. -/
theorem pair0 (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) :
    val_main_v34 (F := Ideal) E M ω (ix2 e (0 : Fin 2))
      = cosine (fun d => M (ix2 (rowOf (E (ix2 e (0 : Fin 2)))) d)) (fun d => M (ix2 (rowOf (E (ix2 e (1 : Fin 2)))) d))
          (fun d => ω (ix2 (0 : Fin 1) d)) := by
  have hi : idx_main_v32 (ix2 e (0 : Fin 1)) = ix1 e := funext fun a => match a with | ⟨0, _⟩ => rfl
  rw [← cos_at, ← hi, ← val_main_v32_apply]
  unfold val_main_v34
  generalize val_main_v32 (F := Ideal) E M ω = y0
  generalize val_main_v33 (F := Ideal) E M ω = y1
  exact concatenate_pair_apply_left (1 : Fin S1000000x2.rank) y0 y1 _ (ix2 e (0 : Fin 2)) rfl (ix2 e (0 : Fin 1))
    (fun b => match b with | ⟨0, _⟩ => rfl | ⟨1, _⟩ => rfl)

/-- Column 1 of the joined pair is the inner product. -/
theorem pair1 (E : (⟨S1000000x2, .i32⟩ : BufTy).Contents (Elt Ideal)) (M : (⟨S100000x256, .f32⟩ : BufTy).Contents (Elt Ideal)) (ω : (⟨S1x256, .f32⟩ : BufTy).Contents (Elt Ideal)) (e : Fin 1000000) :
    val_main_v34 (F := Ideal) E M ω (ix2 e (1 : Fin 2))
      = wdot (fun d => M (ix2 (rowOf (E (ix2 e (0 : Fin 2)))) d)) (fun d => M (ix2 (rowOf (E (ix2 e (1 : Fin 2)))) d))
          (fun d => ω (ix2 (0 : Fin 1) d)) := by
  have hi : idx_main_v33 (ix2 e (0 : Fin 1)) = ix1 e := funext fun a => match a with | ⟨0, _⟩ => rfl
  rw [← dot_at, ← hi, ← val_main_v33_apply]
  unfold val_main_v34
  generalize val_main_v32 (F := Ideal) E M ω = y0
  generalize val_main_v33 (F := Ideal) E M ω = y1
  exact concatenate_pair_apply_right (1 : Fin S1000000x2.rank) y0 y1 _ (ix2 e (1 : Fin 2)) rfl rfl (ix2 e (0 : Fin 1))
    (fun b => match b with
      | ⟨0, _⟩ => fun _ => rfl
      | ⟨1, _⟩ => fun h => absurd rfl h)
    rfl

/-- The first layer at unit j: the pair against the two columns of the weight matrix, the bias, the rectifier. -/
theorem hidden1_at (E : (⟨S1000000x2, .i32⟩ : BufTy).Contents (Elt Ideal)) (M : (⟨S100000x256, .f32⟩ : BufTy).Contents (Elt Ideal)) (ω : (⟨S1x256, .f32⟩ : BufTy).Contents (Elt Ideal)) (W1 : (⟨S64x2, .f32⟩ : BufTy).Contents (Elt Ideal)) (b1 : (⟨S64, .f32⟩ : BufTy).Contents (Elt Ideal)) (e : Fin 1000000) (j : Fin 64) :
    val_main_v40 (F := Ideal) E M ω W1 b1 (ix2 e j)
      = hidden1 (fun d => M (ix2 (rowOf (E (ix2 e (0 : Fin 2)))) d)) (fun d => M (ix2 (rowOf (E (ix2 e (1 : Fin 2)))) d))
          (fun d => ω (ix2 (0 : Fin 1) d))
          (fun j => W1 (ix2 j (0 : Fin 2))) (fun j => W1 (ix2 j (1 : Fin 2))) (fun j => b1 (ix1 j)) j := by
  have hl : ∀ k : Fin 2, lidx_main_v36 (ix2 e j) k = ix2 e k := fun k =>
    funext fun a => match a with | ⟨0, _⟩ => rfl | ⟨1, _⟩ => rfl
  have hr : ∀ k : Fin 2, idx_main_v35 (ridx_main_v36 (ix2 e j) k) = ix2 j k := fun k =>
    funext fun a => match a with | ⟨0, _⟩ => rfl | ⟨1, _⟩ => rfl
  have hb : idx_main_v37 (idx_main_v38 (ix2 e j)) = ix1 j := funext fun a => match a with | ⟨0, _⟩ => rfl
  rw [val_main_v40_apply, val_main_v39_apply, val_main_v36_apply, Fin.sum_univ_two, val_main_v35_apply, val_main_v35_apply,
    hl, hl, hr, hr, pair0, pair1, val_main_v38_apply, val_main_v37_apply, hb, val_main_call2_v0_apply, val_main_call2_cst_apply,
    Ideal.ofBits_def, Ideal.ofBits_zero_f32]
  rfl

/-- The second layer at unit l: the first layer against a row of the weight matrix, the bias, the rectifier. -/
theorem hidden2_at (E : (⟨S1000000x2, .i32⟩ : BufTy).Contents (Elt Ideal)) (M : (⟨S100000x256, .f32⟩ : BufTy).Contents (Elt Ideal)) (ω : (⟨S1x256, .f32⟩ : BufTy).Contents (Elt Ideal)) (W1 : (⟨S64x2, .f32⟩ : BufTy).Contents (Elt Ideal)) (b1 : (⟨S64, .f32⟩ : BufTy).Contents (Elt Ideal)) (W2 : (⟨S32x64, .f32⟩ : BufTy).Contents (Elt Ideal)) (b2 : (⟨S32, .f32⟩ : BufTy).Contents (Elt Ideal)) (e : Fin 1000000) (l : Fin 32) :
    val_main_v46 (F := Ideal) E M ω W1 b1 W2 b2 (ix2 e l)
      = hidden2 (fun d => M (ix2 (rowOf (E (ix2 e (0 : Fin 2)))) d)) (fun d => M (ix2 (rowOf (E (ix2 e (1 : Fin 2)))) d))
          (fun d => ω (ix2 (0 : Fin 1) d))
          (fun j => W1 (ix2 j (0 : Fin 2))) (fun j => W1 (ix2 j (1 : Fin 2))) (fun j => b1 (ix1 j))
          (fun j l => W2 (ix2 l j)) (fun l => b2 (ix1 l)) l := by
  have hb : idx_main_v43 (idx_main_v44 (ix2 e l)) = ix1 l := funext fun a => match a with | ⟨0, _⟩ => rfl
  rw [val_main_v46_apply, val_main_v45_apply, val_main_v42_apply, val_main_v44_apply, val_main_v43_apply, hb,
    val_main_call3_v0_apply, val_main_call3_cst_apply, Ideal.ofBits_def, Ideal.ofBits_zero_f32]
  refine congrArg (fun s => max (s + b2 (ix1 l)) (0 : EReal)) (Finset.sum_congr rfl fun k _ => ?_)
  have hl : lidx_main_v42 (ix2 e l) k = ix2 e k := funext fun a => match a with | ⟨0, _⟩ => rfl | ⟨1, _⟩ => rfl
  have hr : idx_main_v41 (ridx_main_v42 (ix2 e l) k) = ix2 l k :=
    funext fun a => match a with | ⟨0, _⟩ => rfl | ⟨1, _⟩ => rfl
  rw [hl, hidden1_at, val_main_v41_apply, hr]

/-! ## The result -/

/-- The reference's result at edge e, as the score of the rows its two index words name. -/
theorem ref_score (E : (⟨S1000000x2, .i32⟩ : BufTy).Contents (Elt Ideal)) (M : (⟨S100000x256, .f32⟩ : BufTy).Contents (Elt Ideal))
    (ω : (⟨S1x256, .f32⟩ : BufTy).Contents (Elt Ideal)) (W1 : (⟨S64x2, .f32⟩ : BufTy).Contents (Elt Ideal))
    (b1 : (⟨S64, .f32⟩ : BufTy).Contents (Elt Ideal)) (W2 : (⟨S32x64, .f32⟩ : BufTy).Contents (Elt Ideal))
    (b2 : (⟨S32, .f32⟩ : BufTy).Contents (Elt Ideal)) (Wp : (⟨S1x32, .f32⟩ : BufTy).Contents (Elt Ideal))
    (bp : (⟨S1, .f32⟩ : BufTy).Contents (Elt Ideal)) (e : Fin 1000000) :
    val_main_v52 (F := Ideal) E M ω W1 b1 W2 b2 Wp bp (ix1 e)
      = score (fun d => M (ix2 (rowOf (E (ix2 e (0 : Fin 2)))) d)) (fun d => M (ix2 (rowOf (E (ix2 e (1 : Fin 2)))) d))
          (fun d => ω (ix2 (0 : Fin 1) d))
          (fun j => W1 (ix2 j (0 : Fin 2))) (fun j => W1 (ix2 j (1 : Fin 2))) (fun j => b1 (ix1 j))
          (fun j l => W2 (ix2 l j)) (fun l => b2 (ix1 l)) (fun l => Wp (ix2 (0 : Fin 1) l)) (bp (ix1 (0 : Fin 1))) := by
  have hi : idx_main_v52 (ix1 e) = ix2 e (0 : Fin 1) := funext fun a => Fin.ext (by
    match a with
    | ⟨0, _⟩ => exact Nat.div_one _
    | ⟨1, _⟩ => rfl)
  have hb : idx_main_v49 (idx_main_v50 (ix2 e (0 : Fin 1))) = ix1 (0 : Fin 1) :=
    funext fun a => match a with | ⟨0, _⟩ => rfl
  rw [val_main_v52_apply, hi, val_main_v51_apply, val_main_v48_apply, val_main_v50_apply, val_main_v49_apply, hb]
  refine congrArg (fun s => s + bp (ix1 (0 : Fin 1))) (Finset.sum_congr rfl fun k _ => ?_)
  have hl : lidx_main_v48 (ix2 e (0 : Fin 1)) k = ix2 e k := funext fun a => match a with | ⟨0, _⟩ => rfl | ⟨1, _⟩ => rfl
  have hr : idx_main_v47 (ridx_main_v48 (ix2 e (0 : Fin 1)) k) = ix2 (0 : Fin 1) k :=
    funext fun a => match a with | ⟨0, _⟩ => rfl | ⟨1, _⟩ => rfl
  rw [hl, hidden2_at, val_main_v47_apply, hr]

end Cert.RefScore

end
-- ==== Proof.lean ====
/- The proof of `Cert.Claim`: a kernel that scores 1000000 edges — for each edge the cosine and the weighted inner
   product of two rows of an embedding table, fed through a small rectified network — against its plain reference.

   Both programs read, for every edge, the two table rows its index words name, and both compute ONE function of
   those rows (Score.lean): the kernel applies the squared weight to the product of the rows where the reference
   weights each row first, writes the first layer as broadcasts where the reference takes a matrix product over two
   terms, and works block by block on rows gathered beforehand, padded to a multiple of the block. On the extended
   reals these are regroupings of products and finite sums, which need no finiteness.
   The two differ only in what they do with an index word OUTSIDE the table: the kernel's take fills such a row, the
   reference's indexing clamps. The precondition keeps every index word in [-100000, 100000), the range the
   reference's indexing accepts without reading out of range (a negative index counts from the end); there the
   wrapped word names a table row on both sides.
   The three frames are the generated ones (the reference's is its generated run with the result dropped); the
   idealization rewrote nothing, so `preserves` is trivial; `algebraic` is the kernel's run re-posted at the score
   function (KernelTail.lean over KernelBlocks.lean, KernelHost.lean, KernelPayload.lean) beside the reference's
   generated run re-posted at the same function (RefScore.lean). -/
import proofs.«425991_j65300682768662_3_alg».proof.Defs
import proofs.«425991_j65300682768662_3_alg».proof.Proof.Gen.Kernel
import proofs.«425991_j65300682768662_3_alg».proof.Proof.Gen.Kernel.Skeleton
import proofs.«425991_j65300682768662_3_alg».proof.Proof.Gen.Kernel.Launch
import proofs.«425991_j65300682768662_3_alg».proof.Proof.Gen.Kernel.Points
import proofs.«425991_j65300682768662_3_alg».proof.Proof.Gen.Kernel.Frame
import proofs.«425991_j65300682768662_3_alg».proof.Proof.Gen.KernelIdeal
import proofs.«425991_j65300682768662_3_alg».proof.Proof.Gen.KernelIdeal.Skeleton
import proofs.«425991_j65300682768662_3_alg».proof.Proof.Gen.KernelIdeal.Launch
import proofs.«425991_j65300682768662_3_alg».proof.Proof.Gen.KernelIdeal.Points
import proofs.«425991_j65300682768662_3_alg».proof.Proof.Gen.KernelIdeal.Frame
import proofs.«425991_j65300682768662_3_alg».proof.Proof.Gen.ReferenceIdeal
import proofs.«425991_j65300682768662_3_alg».proof.Proof.Gen.Pre_finite_inputs
import proofs.«425991_j65300682768662_3_alg».proof.Proof.Gen.ReferenceIdeal.Run
import proofs.«425991_j65300682768662_3_alg».proof.Proof.Gen.ReferenceIdeal.Read
import proofs.«425991_j65300682768662_3_alg».proof.Proof.EdgeRange
import proofs.«425991_j65300682768662_3_alg».proof.Proof.KernelTail
import proofs.«425991_j65300682768662_3_alg».proof.Proof.RefScore
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Score

/-- THE RESULT both programs compute from the nine arguments: at edge i the score of the two table rows the edge's
    index words name. -/
def scores (E : IVec ⟨2, ![1000000, 2]⟩ 32) (M : FVec Ideal ⟨2, ![100000, 256]⟩ .f32) (ω : FVec Ideal ⟨2, ![1, 256]⟩ .f32)
    (W1 : FVec Ideal ⟨2, ![64, 2]⟩ .f32) (b1 : FVec Ideal ⟨1, ![64]⟩ .f32) (W2 : FVec Ideal ⟨2, ![32, 64]⟩ .f32)
    (b2 : FVec Ideal ⟨1, ![32]⟩ .f32) (Wp : FVec Ideal ⟨2, ![1, 32]⟩ .f32) (bp : FVec Ideal ⟨1, ![1]⟩ .f32) :
    FVec Ideal ⟨1, ![1000000]⟩ .f32 := fun i =>
  score (fun d => M (ix2 (rowOf (E (ix2 (⟨(i 0).val, (i 0).isLt⟩ : Fin 1000000) (0 : Fin 2)))) d))
    (fun d => M (ix2 (rowOf (E (ix2 (⟨(i 0).val, (i 0).isLt⟩ : Fin 1000000) (1 : Fin 2)))) d))
    (fun d => ω (ix2 (0 : Fin 1) d))
    (fun j => W1 (ix2 j (0 : Fin 2))) (fun j => W1 (ix2 j (1 : Fin 2))) (fun j => b1 (ix1 j))
    (fun j l => W2 (ix2 l j)) (fun l => b2 (ix1 l)) (fun l => Wp (ix2 (0 : Fin 1) l)) (bp (ix1 (0 : Fin 1)))

section Kernel

open Cert.KernelIdeal Cert.KernelIdeal.Gen Cert.KernelTail Cert.KernelHost

/-- The kernel program's result is that function of its arguments, for index words in range. -/
theorem kernel_result (m : (ℓ : Loc nD τ sig) → Buf (Elt Ideal) ℓ) (c : Dev nD)
    (hr : ∀ i : S1000000x2.Idx, -100000 ≤ (argE m c i).toInt ∧ (argE m c i).toInt < 100000) :
    (Pipeline.afterTail₀ cfgs (dats m) 0 (V0 m) [hostOps1] c main_v21 : FVec Ideal S1000000 .f32)
      = scores (argE m c) (argM m c) (argW m c) (argW1 m c) (argB1 m c) (argW2 m c) (argB2 m c) (argWp m c) (argBp m c) := by
  funext i
  obtain ⟨e, rfl⟩ : ∃ e : Fin 1000000, i = ix1 e := ⟨i 0, eq_ix1 i⟩
  exact result_at m c hr e

/-- THE KERNEL'S RUN, re-posted: under the precondition every weakly fair execution ends with the result at the
    score function of the arguments and the arguments unchanged. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v21)
        = scores (argE m c) (argM m c) (argW m c) (argW1 m c) (argB1 m c) (argW2 m c) (argB2 m c) (argWp m c) (argBp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v21 (Pipeline.mem_restRefs_of main_v21 (by decide) (by decide))).trans
        (kernel_result m c (Cert.EdgeRange.range_of_pre _ _ _ _ _ _ _ _ _ (hpre c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Kernel

/-- The reference's result is the same function of its arguments. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 m' c
      = scores (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) := by
  rw [Cert.ReferenceIdeal.Read.val_main_v52_eq]
  funext i
  obtain ⟨e, rfl⟩ : ∃ e : Fin 1000000, i = ix1 e := ⟨i 0, eq_ix1 i⟩
  exact Cert.RefScore.ref_score _ _ _ _ _ _ _ _ _ e

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories that agree on the arguments, the kernel ends at the score function of its
    arguments (its run re-posted) and the reference at the score function of its own (its generated run re-posted):
    one function of equal arguments. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [ref_result, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
